-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x128x128 : Shape := ⟨4, ![256, 3, 128, 128]⟩
abbrev S256x7 : Shape := ⟨2, ![256, 7]⟩
abbrev S256x32 : Shape := ⟨2, ![256, 32]⟩
abbrev S10 : Shape := ⟨1, ![10]⟩
abbrev S_ : Shape := ⟨0, ![]⟩

class Facts : Prop where
  bcast_S_S256x3x128x128 : S_.BroadcastsInDim S256x3x128x128 (![] : Fin 0 → Fin S256x3x128x128.rank)
  reducesTo_S256x3x128x128_S_d0_1_2_3 : S256x3x128x128.ReducesTo [0, 1, 2, 3] S_
  h_S_ : 0 < S_.numel
  bcast_S_S256x7 : S_.BroadcastsInDim S256x7 (![] : Fin 0 → Fin S256x7.rank)
  reducesTo_S256x7_S_d0_1 : S256x7.ReducesTo [0, 1] S_
  bcast_S_S256x32 : S_.BroadcastsInDim S256x32 (![] : Fin 0 → Fin S256x32.rank)
  reducesTo_S256x32_S_d0_1 : S256x32.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S256x3x128x128 .f32) (main_arg1 : FVec F S256x3x128x128 .f32) (main_arg2 : FVec F S256x7 .f32) (main_arg3 : FVec F S256x32 .f32) (main_arg4 : FVec F S10 .f32) : IVec S_ 1 :=
  let main_v0 : FVec F S256x3x128x128 .f32 := Host.absf main_arg0
  let main_cst : FVec F S_ .f32 := constant S_ .f32 0x7F800000#32
  let main_v1 : FVec F S256x3x128x128 .f32 := broadcastInDim S256x3x128x128 ![] bcast_S_S256x3x128x128 main_cst
  let main_v2 : IVec S256x3x128x128 1 := cmpf .olt main_v0 main_v1
  let main_c : IVec S_ 1 := constantI S_ 1 1#1
  let main_v3 : IVec S_ 1 := (fun x v => Host.reduce IntOp.andi x v reducesTo_S256x3x128x128_S_d0_1_2_3 h_S_) main_v2 main_c
  let main_v4 : FVec F S256x3x128x128 .f32 := Host.absf main_arg1
  let main_cst_0 : FVec F S_ .f32 := constant S_ .f32 0x7F800000#32
  let main_v5 : FVec F S256x3x128x128 .f32 := broadcastInDim S256x3x128x128 ![] bcast_S_S256x3x128x128 main_cst_0
  let main_v6 : IVec S256x3x128x128 1 := cmpf .olt main_v4 main_v5
  let main_c_1 : IVec S_ 1 := constantI S_ 1 1#1
  let main_v7 : IVec S_ 1 := (fun x v => Host.reduce IntOp.andi x v reducesTo_S256x3x128x128_S_d0_1_2_3 h_S_) main_v6 main_c_1
  let main_v8 : IVec S_ 1 := andi main_v3 main_v7
  let main_v9 : FVec F S256x7 .f32 := Host.absf main_arg2
  let main_cst_2 : FVec F S_ .f32 := constant S_ .f32 0x7F800000#32
  let main_v10 : FVec F S256x7 .f32 := broadcastInDim S256x7 ![] bcast_S_S256x7 main_cst_2
  let main_v11 : IVec S256x7 1 := cmpf .olt main_v9 main_v10
  let main_c_3 : IVec S_ 1 := constantI S_ 1 1#1
  let main_v12 : IVec S_ 1 := (fun x v => Host.reduce IntOp.andi x v reducesTo_S256x7_S_d0_1 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S256x3x128x128 : Shape := ⟨4, ![256, 3, 128, 128]⟩
abbrev S256x7 : Shape := ⟨2, ![256, 7]⟩
abbrev S256x32 : Shape := ⟨2, ![256, 32]⟩
abbrev S10 : Shape := ⟨1, ![10]⟩
abbrev S1x1 : Shape := ⟨2, ![1, 1]⟩
abbrev S32x3x128x128 : Shape := ⟨4, ![32, 3, 128, 128]⟩
abbrev S32x3x128 : Shape := ⟨3, ![32, 3, 128]⟩
abbrev S32x3 : Shape := ⟨2, ![32, 3]⟩
abbrev S32 : Shape := ⟨1, ![32]⟩
abbrev S1x32 : Shape := ⟨2, ![1, 32]⟩
abbrev S1 : Shape := ⟨1, ![1]⟩
abbrev S_ : Shape := ⟨0, ![]⟩
abbrev S256x3 : Shape := ⟨2, ![256, 3]⟩
abbrev S256x3x1 : Shape := ⟨3, ![256, 3, 1]⟩
abbrev S1x1x10 : Shape := ⟨3, ![1, 1, 10]⟩
abbrev S256x3x10 : Shape := ⟨3, ![256, 3, 10]⟩
abbrev S3 : Shape := ⟨1, ![3]⟩
abbrev S256x4 : Shape := ⟨2, ![256, 4]⟩
abbrev S256 : Shape := ⟨1, ![256]⟩

abbrev nBuf : Space → Nat
  | .hbm => 95
  | .vmem => 6
  | .smem => 0
  | _ => 0

abbrev bufTy : (tb : Table) → Fin (tcTables nBuf tb) → BufTy
  | .hbm, ⟨0, _⟩ => ⟨S256x3x128x128, .f32⟩
  | .hbm, ⟨1, _⟩ => ⟨S256x3x128x128, .f32⟩
  | .hbm, ⟨2, _⟩ => ⟨S256x7, .f32⟩
  | .hbm, ⟨3, _⟩ => ⟨S256x32, .f32⟩
  | .hbm, ⟨4, _⟩ => ⟨S10, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x3, .f32⟩
  | .hbm, ⟨10, _⟩ => ⟨S256x3, .f32⟩
  | .hbm, ⟨11, _⟩ => ⟨S256x3, .i1⟩
  | .hbm, ⟨12, _⟩ => ⟨S256x3x1, .f32⟩
  | .hbm, ⟨13, _⟩ => ⟨S1x1x10, .f32⟩
  | .hbm, ⟨14, _⟩ => ⟨S256x3x10, .f32⟩
  | .hbm, ⟨15, _⟩ => ⟨S256x3x10, .f32⟩
  | .hbm, ⟨16, _⟩ => ⟨S256x3x10, .f32⟩
  | .hbm, ⟨17, _⟩ => ⟨S256x3x10, .f32⟩
  | .hbm, ⟨18, _⟩ => ⟨S_, .f32⟩
  | .hbm, ⟨19, _⟩ => ⟨S256x3, .f32⟩
  | .hbm, ⟨20, _⟩ => ⟨S256x3, .i1⟩
  | .hbm, ⟨21, _⟩ => ⟨S_, .f32⟩
  | .hbm, ⟨22, _⟩ => ⟨S256x3, .f32⟩
  | .hbm, ⟨23, _⟩ => ⟨S256x3, .f32⟩
  | .hbm, ⟨24, _⟩ => ⟨S_, .f32⟩
  | .hbm, ⟨25, _⟩ => ⟨S256x3, .f32⟩
  | .hbm, ⟨26, _⟩ => ⟨S256x3, .i1⟩
  | .hbm, ⟨27, _⟩ => ⟨S_, .f32⟩
  | .hbm, ⟨28, _⟩ => ⟨S256x3, .f32⟩
  | .hbm, ⟨29, _⟩ => ⟨S256x3, .f32⟩
  | .hbm, ⟨30, _⟩ => ⟨S_, .f32⟩
  | .hbm, ⟨31, _⟩ => ⟨S256x3, .f32⟩
  | .hbm, ⟨32, _⟩ => ⟨S256x3, .i1⟩
  | .hbm, ⟨33, _⟩ => ⟨S_, .f32⟩
  | .hbm, ⟨34, _⟩ => ⟨S256x3, .f32⟩
  | .hbm, ⟨35, _⟩ => ⟨S256x3, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S256x3, .f32⟩
  | .hbm, ⟨40, _⟩ => ⟨S256x3, .f32⟩
  | .hbm, ⟨41, _⟩ => ⟨S_, .f32⟩
  | .hbm, ⟨42, _⟩ => ⟨S256x3, .f32⟩
  | .hbm, ⟨43, _⟩ => ⟨S256x3, .f32⟩
  | .hbm, ⟨44, _⟩ => ⟨S256x3, .i32⟩
  | .hbm, ⟨45, _⟩ => ⟨S_, .i32⟩
  | .hbm, ⟨46, _⟩ => ⟨S256x3, .i32⟩
  | .hbm, ⟨47, _⟩ => ⟨S256x3, .i1⟩
  | .hbm, ⟨48, _⟩ => ⟨S_, .i32⟩
  | .hbm, ⟨49, _⟩ => ⟨S256x3, .i32⟩
  | .hbm, ⟨50, _⟩ => ⟨S256x3, .i32⟩
  | .hbm, ⟨51, _⟩ => ⟨S256x3, .i32⟩
  | .hbm, ⟨52, _⟩ => ⟨S256x3x1, .i32⟩
  | .hbm, ⟨53, _⟩ => ⟨S256x3, .f32⟩
  | .hbm, ⟨54, _⟩ => ⟨S256x3, .f32⟩
  | .hbm, ⟨55, _⟩ => ⟨S256x3, .f32⟩
  | .hbm, ⟨56, _⟩ => ⟨S256x3, .f32⟩
  | .hbm, ⟨57, _⟩ => ⟨S_, .f32⟩
  | .hbm, ⟨58, _⟩ => ⟨S3, .f32⟩
  | .hbm, ⟨59, _⟩ => ⟨S_, .f32⟩
  | .hbm, ⟨60, _⟩ => ⟨S3, .f32⟩
  | .hbm, ⟨61, _⟩ => ⟨S3, .f32⟩
  | .hbm, ⟨62, _⟩ => ⟨S_, .f32⟩
  | .hbm, ⟨63, _⟩ => ⟨S_, .f32⟩
  | .hbm, ⟨64, _⟩ => ⟨S256x4, .f32⟩
  | .hbm, ⟨65, _⟩ => ⟨S256x4, .f32⟩
  | .hbm, ⟨66, _⟩ => ⟨S256x4, .i1⟩
  | .hbm, ⟨67, _⟩ => ⟨S256x4, .i1⟩
  | .hbm, ⟨68, _⟩ => ⟨S_, .f32⟩
  | .hbm, ⟨69, _⟩ => ⟨S_, .f32⟩
  | .hbm, ⟨70, _⟩ => ⟨S256x4, .f32⟩
  | .hbm, ⟨71, _⟩ => ⟨S256x4, .f32⟩
  | .hbm, ⟨72, _⟩ => ⟨S256x4, .f32⟩
  | .hbm, ⟨73, _⟩ => ⟨S256x4, .f32⟩
  | .hbm, ⟨74, _⟩ => ⟨S_, .f32⟩
  | .hbm, ⟨75, _⟩ => ⟨S_, .f32⟩
  | .hbm, ⟨76, _⟩ => ⟨S256x4, .f32⟩
  | .hbm, ⟨77, _⟩ => ⟨S256x4, .f32⟩
  | .hbm, ⟨78, _⟩ => ⟨S256x4, .f32⟩
  | .hbm, ⟨79, _⟩ => ⟨S_, .f32⟩
  | .hbm, ⟨80, _⟩ => ⟨S256x4, .f32⟩
  | .hbm, ⟨81, _⟩ => ⟨S256x4, .f32⟩
  | .hbm, ⟨82, _⟩ => ⟨S_, .f32⟩
  | .hbm, ⟨83, _⟩ => ⟨S256x4, .f32⟩
  | .hbm, ⟨84, _⟩ => ⟨S256x4, .f32⟩
  | .hbm, ⟨85, _⟩ => ⟨S256x4, .f32⟩
  | .hbm, ⟨86, _⟩ => ⟨S256x4, .f32⟩
  | .hbm, ⟨87, _⟩ => ⟨S_, .f32⟩
  | .hbm, ⟨88, _⟩ => ⟨S256, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .local _ .vmem, ⟨0, _⟩ => ⟨S32x3x128x128, .f32⟩
  | .local _ .vmem, ⟨1, _⟩ => ⟨S32x3x128x128, .f32⟩
  | .local _ .vmem, ⟨2, _⟩ => ⟨S32x3x128x128, .f32⟩
  | .local _ .vmem, ⟨3, _⟩ => ⟨S32x3x128x128, .f32⟩
  | .local _ .vmem, ⟨4, _⟩ => ⟨S1x1, .f32⟩
  | .local _ .vmem, ⟨5, _⟩ => ⟨S1x1, .f32⟩
  | _, _ => ⟨S256x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_call0_v0 : Ref sig .tc := ⟨.hbm, 20, rfl⟩
abbrev main_call0_cst : Ref sig .tc := ⟨.hbm, 21, rfl⟩
abbrev main_call0_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_cst_1 : Ref sig .tc := ⟨.hbm, 27, rfl⟩
abbrev main_call0_call1_v0 : Ref sig .tc := ⟨.hbm, 28, rfl⟩
abbrev main_call0_v4 : Ref sig .tc := ⟨.hbm, 29, rfl⟩
abbrev main_call0_cst_2 : Ref sig .tc := ⟨.hbm, 30, rfl⟩
abbrev main_call0_v5 : Ref sig .tc := ⟨.hbm, 31, rfl⟩
abbrev main_call0_v6 : Ref sig .tc := ⟨.hbm, 32, rfl⟩
abbrev main_call0_cst_3 : Ref sig .tc := ⟨.hbm, 33, rfl⟩
abbrev main_call0_call2_v0 : Ref sig .tc := ⟨.hbm, 34, rfl⟩
abbrev main_v13 : Ref sig .tc := ⟨.hbm, 35, rfl⟩
abbrev main_c : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_call3_v0 : Ref sig .tc := ⟨.hbm, 69, rfl⟩
abbrev main_call3_v1 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_call4_v0 : Ref sig .tc := ⟨.hbm, 75, rfl⟩
abbrev main_call4_v1 : Ref sig .tc := ⟨.hbm, 76, rfl⟩
abbrev main_v37 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_v40 : Ref sig .tc := ⟨.hbm, 81, rfl⟩
abbrev main_call5_cst : Ref sig .tc := ⟨.hbm, 82, rfl⟩
abbrev main_call5_v0 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_10 : Ref sig .tc := ⟨.hbm, 87, rfl⟩
abbrev main_v44 : Ref sig .tc := ⟨.hbm, 88, rfl⟩
abbrev main_cst_11 : Ref sig .tc := ⟨.hbm, 89, rfl⟩
abbrev main_v45 : Ref sig .tc := ⟨.hbm, 90, rfl⟩
abbrev main_cst_12 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_15 : BitVec 32 := 0#32
  let v22 : BitVec 1 := Scalar.cmpi .ne v21 c0_i32_15
  v22

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x3x128x128_S32x3x128x128_0_0_0_0 : ∀ a, (![0, 0, 0, 0] : Fin 4 → Nat) a + S32x3x128x128.size a ≤ S32x3x128x128.size a
  h_S32x3x128x128 : 0 < S32x3x128x128.numel
  reduces_S32x3x128x128_S32x3x128 : S32x3x128x128.Reduces [3] S32x3x128
  reduces_S32x3x128_S32x3 : S32x3x128.Reduces [2] S32x3
  reduces_S32x3_S32 : S32x3.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  slices_S256x32_S256x3_0_0 : S256x32.Slices ![0, 0] S256x3
  slices_S256x7_S256x3_0_0 : S256x7.Slices ![0, 0] S256x3
  bcast_S256x3_S256x3x1_0_1 : S256x3.BroadcastsInDim S256x3x1 (![0, 1] : Fin 2 → Fin S256x3x1.rank)
  bcast_S10_S1x1x10_2 : S10.BroadcastsInDim S1x1x10 (![2] : Fin 1 → Fin S1x1x10.rank)
  bcast_S256x3x1_S256x3x10_0_1_2 : S256x3x1.BroadcastsInDim S256x3x10 (![0, 1, 2] : Fin 3 → Fin S256x3x10.rank)
  bcast_S1x1x10_S256x3x10_0_1_2 : S1x1x10.BroadcastsInDim S256x3x10 (![0, 1, 2] : Fin 3 → Fin S256x3x10.rank)
  reducesTo_S256x3x10_S256x3_d2 : S256x3x10.ReducesTo [2] S256x3
  h_S_ : 0 < S_.numel
  bcast_S_S256x3 : S_.BroadcastsInDim S256x3 (![] : Fin 0 → Fin S256x3.rank)
  reducesTo_S256x3_S3_d0 : S256x3.ReducesTo [0] S3
  bcast_S_S3 : S_.BroadcastsInDim S3 (![] : Fin 0 → Fin S3.rank)
  reducesTo_S3_S_d0 : S3.ReducesTo [0] S_
  slices_S256x32_S256x4_0_3 : S256x32.Slices ![0, 3] S256x4
  slices_S256x7_S256x4_0_3 : S256x7.Slices ![0, 3] S256x4
  bcast_S_S256x4 : S_.BroadcastsInDim S256x4 (![] : Fin 0 → Fin S256x4.rank)
  reducesTo_S256x4_S256_d1 : S256x4.ReducesTo [1] S256
  reducesTo_S256_S_d0 : S256.ReducesTo [0] S_
  gather_S10_S256x3x1_S256x3_n_0_n_n_0_2_1_wf : GatherDims.WF S10 S256x3x1 S256x3 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3x128x128.size a ≤ S256x3x128x128.size a
  hwx0_0 : ∀ i : grid0.Coords, EltTy.bits .f32 = 32 ∨ (Rect.block (s := S256x3x128x128) S32x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x3x128x128.size a ≤ S256x3x128x128.size a
  hwx0_1 : ∀ i : grid0.Coords, EltTy.bits .f32 = 32 ∨ (Rect.block (s := S256x3x128x128) S32x3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S10_S256x3x1_S256x3_n_0_n_n_0_2_1 : GatherDims S10 S256x3x1 S256x3 where
  offsetDims := []
  collapsedSliceDims := [0]
  operandBatchingDims := []
  startIndicesBatchingDims := []
  startIndexMap := [0]
  indexVectorDim := 2
  sliceSizes := ![1]
  wf := gather_S10_S256x3x1_S256x3_n_0_n_n_0_2_1_wf

abbrev win0_0 : Pipeline.Window sig grid0 :=
  Pipeline.Window.ofSpec (Memref.whole main_arg0) S32x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x3x128x128 : Shape := ⟨4, ![256, 3, 128, 128]⟩
abbrev S256x7 : Shape := ⟨2, ![256, 7]⟩
abbrev S256x32 : Shape := ⟨2, ![256, 32]⟩
abbrev S10 : Shape := ⟨1, ![10]⟩
abbrev S_ : Shape := ⟨0, ![]⟩
abbrev S256 : Shape := ⟨1, ![256]⟩
abbrev S256x3 : Shape := ⟨2, ![256, 3]⟩
abbrev S256x3x1 : Shape := ⟨3, ![256, 3, 1]⟩
abbrev S1x1x10 : Shape := ⟨3, ![1, 1, 10]⟩
abbrev S256x3x10 : Shape := ⟨3, ![256, 3, 10]⟩
abbrev S3 : Shape := ⟨1, ![3]⟩
abbrev S256x4 : Shape := ⟨2, ![256, 4]⟩

abbrev nBuf : Space → Nat
  | .hbm => 99
  | .vmem => 0
  | .smem => 0
  | _ => 0

abbrev bufTy : (tb : Table) → Fin (tcTables nBuf tb) → BufTy
  | .hbm, ⟨0, _⟩ => ⟨S256x3x128x128, .f32⟩
  | .hbm, ⟨1, _⟩ => ⟨S256x3x128x128, .f32⟩
  | .hbm, ⟨2, _⟩ => ⟨S256x7, .f32⟩
  | .hbm, ⟨3, _⟩ => ⟨S256x32, .f32⟩
  | .hbm, ⟨4, _⟩ => ⟨S10, .f32⟩
  | .hbm, ⟨5, _⟩ => ⟨S256x3x128x128, .f32⟩
  | .hbm, ⟨6, _⟩ => ⟨S256x3x128x128, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S256x3, .f32⟩
  | .hbm, ⟨14, _⟩ => ⟨S256x3, .f32⟩
  | .hbm, ⟨15, _⟩ => ⟨S256x3, .i1⟩
  | .hbm, ⟨16, _⟩ => ⟨S256x3x1, .f32⟩
  | .hbm, ⟨17, _⟩ => ⟨S1x1x10, .f32⟩
  | .hbm, ⟨18, _⟩ => ⟨S256x3x10, .f32⟩
  | .hbm, ⟨19, _⟩ => ⟨S256x3x10, .f32⟩
  | .hbm, ⟨20, _⟩ => ⟨S256x3x10, .f32⟩
  | .hbm, ⟨21, _⟩ => ⟨S256x3x10, .f32⟩
  | .hbm, ⟨22, _⟩ => ⟨S_, .f32⟩
  | .hbm, ⟨23, _⟩ => ⟨S256x3, .f32⟩
  | .hbm, ⟨24, _⟩ => ⟨S256x3, .i1⟩
  | .hbm, ⟨25, _⟩ => ⟨S_, .f32⟩
  | .hbm, ⟨26, _⟩ => ⟨S256x3, .f32⟩
  | .hbm, ⟨27, _⟩ => ⟨S256x3, .f32⟩
  | .hbm, ⟨28, _⟩ => ⟨S_, .f32⟩
  | .hbm, ⟨29, _⟩ => ⟨S256x3, .f32⟩
  | .hbm, ⟨30, _⟩ => ⟨S256x3, .i1⟩
  | .hbm, ⟨31, _⟩ => ⟨S_, .f32⟩
  | .hbm, ⟨32, _⟩ => ⟨S256x3, .f32⟩
  | .hbm, ⟨33, _⟩ => ⟨S256x3, .f32⟩
  | .hbm, ⟨34, _⟩ => ⟨S_, .f32⟩
  | .hbm, ⟨35, _⟩ => ⟨S256x3, .f32⟩
  | .hbm, ⟨36, _⟩ => ⟨S256x3, .i1⟩
  | .hbm, ⟨37, _⟩ => ⟨S_, .f32⟩
  | .hbm, ⟨38, _⟩ => ⟨S256x3, .f32⟩
  | .hbm, ⟨39, _⟩ => ⟨S256x3, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S256x3, .f32⟩
  | .hbm, ⟨44, _⟩ => ⟨S256x3, .f32⟩
  | .hbm, ⟨45, _⟩ => ⟨S_, .f32⟩
  | .hbm, ⟨46, _⟩ => ⟨S256x3, .f32⟩
  | .hbm, ⟨47, _⟩ => ⟨S256x3, .f32⟩
  | .hbm, ⟨48, _⟩ => ⟨S256x3, .i32⟩
  | .hbm, ⟨49, _⟩ => ⟨S_, .i32⟩
  | .hbm, ⟨50, _⟩ => ⟨S256x3, .i32⟩
  | .hbm, ⟨51, _⟩ => ⟨S256x3, .i1⟩
  | .hbm, ⟨52, _⟩ => ⟨S_, .i32⟩
  | .hbm, ⟨53, _⟩ => ⟨S256x3, .i32⟩
  | .hbm, ⟨54, _⟩ => ⟨S256x3, .i32⟩
  | .hbm, ⟨55, _⟩ => ⟨S256x3, .i32⟩
  | .hbm, ⟨56, _⟩ => ⟨S256x3x1, .i32⟩
  | .hbm, ⟨57, _⟩ => ⟨S256x3, .f32⟩
  | .hbm, ⟨58, _⟩ => ⟨S256x3, .f32⟩
  | .hbm, ⟨59, _⟩ => ⟨S256x3, .f32⟩
  | .hbm, ⟨60, _⟩ => ⟨S256x3, .f32⟩
  | .hbm, ⟨61, _⟩ => ⟨S_, .f32⟩
  | .hbm, ⟨62, _⟩ => ⟨S3, .f32⟩
  | .hbm, ⟨63, _⟩ => ⟨S_, .f32⟩
  | .hbm, ⟨64, _⟩ => ⟨S3, .f32⟩
  | .hbm, ⟨65, _⟩ => ⟨S3, .f32⟩
  | .hbm, ⟨66, _⟩ => ⟨S_, .f32⟩
  | .hbm, ⟨67, _⟩ => ⟨S_, .f32⟩
  | .hbm, ⟨68, _⟩ => ⟨S256x4, .f32⟩
  | .hbm, ⟨69, _⟩ => ⟨S256x4, .f32⟩
  | .hbm, ⟨70, _⟩ => ⟨S256x4, .i1⟩
  | .hbm, ⟨71, _⟩ => ⟨S256x4, .i1⟩
  | .hbm, ⟨72, _⟩ => ⟨S_, .f32⟩
  | .hbm, ⟨73, _⟩ => ⟨S_, .f32⟩
  | .hbm, ⟨74, _⟩ => ⟨S256x4, .f32⟩
  | .hbm, ⟨75, _⟩ => ⟨S256x4, .f32⟩
  | .hbm, ⟨76, _⟩ => ⟨S256x4, .f32⟩
  | .hbm, ⟨77, _⟩ => ⟨S256x4, .f32⟩
  | .hbm, ⟨78, _⟩ => ⟨S_, .f32⟩
  | .hbm, ⟨79, _⟩ => ⟨S_, .f32⟩
  | .hbm, ⟨80, _⟩ => ⟨S256x4, .f32⟩
  | .hbm, ⟨81, _⟩ => ⟨S256x4, .f32⟩
  | .hbm, ⟨82, _⟩ => ⟨S256x4, .f32⟩
  | .hbm, ⟨83, _⟩ => ⟨S_, .f32⟩
  | .hbm, ⟨84, _⟩ => ⟨S256x4, .f32⟩
  | .hbm, ⟨85, _⟩ => ⟨S256x4, .f32⟩
  | .hbm, ⟨86, _⟩ => ⟨S_, .f32⟩
  | .hbm, ⟨87, _⟩ => ⟨S256x4, .f32⟩
  | .hbm, ⟨88, _⟩ => ⟨S256x4, .f32⟩
  | .hbm, ⟨89, _⟩ => ⟨S256x4, .f32⟩
  | .hbm, ⟨90, _⟩ => ⟨S256x4, .f32⟩
  | .hbm, ⟨91, _⟩ => ⟨S_, .f32⟩
  | .hbm, ⟨92, _⟩ => ⟨S256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S256x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_cst_1 : Ref sig .tc := ⟨.hbm, 31, rfl⟩
abbrev main_call0_call1_v0 : Ref sig .tc := ⟨.hbm, 32, rfl⟩
abbrev main_call0_v4 : Ref sig .tc := ⟨.hbm, 33, rfl⟩
abbrev main_call0_cst_2 : Ref sig .tc := ⟨.hbm, 34, rfl⟩
abbrev main_call0_v5 : Ref sig .tc := ⟨.hbm, 35, rfl⟩
abbrev main_call0_v6 : Ref sig .tc := ⟨.hbm, 36, rfl⟩
abbrev main_call0_cst_3 : Ref sig .tc := ⟨.hbm, 37, rfl⟩
abbrev main_call0_call2_v0 : Ref sig .tc := ⟨.hbm, 38, rfl⟩
abbrev main_v15 : Ref sig .tc := ⟨.hbm, 39, rfl⟩
abbrev main_c : Ref sig .tc := ⟨.hbm, 40, rfl⟩
abbrev main_c_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_call3_v0 : Ref sig .tc := ⟨.hbm, 73, rfl⟩
abbrev main_call3_v1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_call4_v0 : Ref sig .tc := ⟨.hbm, 79, rfl⟩
abbrev main_call4_v1 : Ref sig .tc := ⟨.hbm, 80, rfl⟩
abbrev main_v39 : Ref sig .tc := ⟨.hbm, 81, rfl⟩
abbrev main_v40 : Ref sig .tc := ⟨.hbm, 82, rfl⟩
abbrev main_cst_11 : Ref sig .tc := ⟨.hbm, 83, rfl⟩
abbrev main_v41 : Ref sig .tc := ⟨.hbm, 84, rfl⟩
abbrev main_v42 : Ref sig .tc := ⟨.hbm, 85, rfl⟩
abbrev main_call5_cst : Ref sig .tc := ⟨.hbm, 86, rfl⟩
abbrev main_call5_v0 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_12 : Ref sig .tc := ⟨.hbm, 91, rfl⟩
abbrev main_v46 : Ref sig .tc := ⟨.hbm, 92, rfl⟩
abbrev main_cst_13 : Ref sig .tc := ⟨.hbm, 93, rfl⟩
abbrev main_v47 : Ref sig .tc := ⟨.hbm, 94, rfl⟩
abbrev main_cst_14 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩

abbrev nD : Nat := 1
abbrev τ : Topo := Topo.v7x

variable {F : FTy → Type} [FloatOps F]

class Facts₀ : Prop where
  reducesTo_S256x3x128x128_S256_d1_2_3 : S256x3x128x128.ReducesTo [1, 2, 3] S256
  h_S_ : 0 < S_.numel
  reducesTo_S256_S_d0 : S256.ReducesTo [0] S_
  slices_S256x32_S256x3_0_0 : S256x32.Slices ![0, 0] S256x3
  slices_S256x7_S256x3_0_0 : S256x7.Slices ![0, 0] S256x3
  bcast_S256x3_S256x3x1_0_1 : S256x3.BroadcastsInDim S256x3x1 (![0, 1] : Fin 2 → Fin S256x3x1.rank)
  bcast_S10_S1x1x10_2 : S10.BroadcastsInDim S1x1x10 (![2] : Fin 1 → Fin S1x1x10.rank)
  bcast_S256x3x1_S256x3x10_0_1_2 : S256x3x1.BroadcastsInDim S256x3x10 (![0, 1, 2] : Fin 3 → Fin S256x3x10.rank)
  bcast_S1x1x10_S256x3x10_0_1_2 : S1x1x10.BroadcastsInDim S256x3x10 (![0, 1, 2] : Fin 3 → Fin S256x3x10.rank)
  reducesTo_S256x3x10_S256x3_d2 : S256x3x10.ReducesTo [2] S256x3
  bcast_S_S256x3 : S_.BroadcastsInDim S256x3 (![] : Fin 0 → Fin S256x3.rank)
  reducesTo_S256x3_S3_d0 : S256x3.ReducesTo [0] S3
  bcast_S_S3 : S_.BroadcastsInDim S3 (![] : Fin 0 → Fin S3.rank)
  reducesTo_S3_S_d0 : S3.ReducesTo [0] S_
  slices_S256x32_S256x4_0_3 : S256x32.Slices ![0, 3] S256x4
  slices_S256x7_S256x4_0_3 : S256x7.Slices ![0, 3] S256x4
  bcast_S_S256x4 : S_.BroadcastsInDim S256x4 (![] : Fin 0 → Fin S256x4.rank)
  reducesTo_S256x4_S256_d1 : S256x4.ReducesTo [1] S256
  gather_S10_S256x3x1_S256x3_n_0_n_n_0_2_1_wf : GatherDims.WF S10 S256x3x1 S256x3 [] [0] [] [0] [] 2 ![1]

variable [Facts₀]

def gather_S10_S256x3x1_S256x3_n_0_n_n_0_2_1 : GatherDims S10 S256x3x1 S256x3 where
  offsetDims := []
  collapsedSliceDims := [0]
  operandBatchingDims := []
  startIndicesBatchingDims := []
  startIndexMap := [0]
  indexVectorDim := 2
  sliceSizes := ![1]
  wf := gather_S10_S256x3x1_S256x3_n_0_n_n_0_2_1_wf

class Facts : Prop extends Facts₀ where

variable [Facts]
-- ==== Proof.Bits.Region.lean ====
/-
  The one pallas_call of the program, seen from @main: the region comes first and every host line follows it.
  This module fixes what the later modules are stated over: the host lines after the region as a list of
  lists (`tailOps`), that none of them writes an argument array or the region's result array, that @main is
  the region continued by those lines, the blocks of the three windows, the two conditions of the body
  (`first`: the grid's first point, where the running total is reset; `last`: its last point, where the
  total is stored into the result window), and the region invariant's form: the scratch word that carries
  the running total, owned whole, and the generator register.
-/
import proofs.«112906_j55533927137965_1_alg».proof.Proof.Gen.Kernel.Launch
import proofs.«112906_j55533927137965_1_alg».proof.Proof.Gen.Kernel.Skeleton
import proofs.«112906_j55533927137965_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- Every host line of @main, in order: they all follow the region. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch contents (no host line comes before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The references no host line may write: the five argument arrays and the region's result array. -/
abbrev kept : List (Ref sig .tc) := [main_arg0, main_arg1, main_arg2, main_arg3, main_arg4, main_v0]

/-- No host line writes one of them: each line writes its own result buffer only, and that is none of the six. -/
theorem tail_keeps : (tailOps (F := F)).flatten.Forall fun op => ∀ r ∈ kept, Proc.devRef (τ := τ) .tc r ∉ op.writes := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro r hr
    simp only [kept, List.mem_cons, List.mem_nil_iff, or_false] at hr
    rcases hr with rfl | rfl | rfl | rfl | rfl | rfl <;> exact StableHlo.devRef_ne_of_ne (by decide)

/-- Membership in one of the lists is membership in their concatenation. -/
theorem mem_tail {ops : List (HloOp τ sig (Elt F))} (hops : ops ∈ (tailOps (F := F))) {op : HloOp τ sig (Elt F)} (hop : op ∈ ops) :
    op ∈ (tailOps (F := F)).flatten := List.mem_flatten.mpr ⟨ops, hops, hop⟩

/-- The lines allocate nothing. -/
theorem tail_fresh : (tailOps (F := F)).flatten.Forall fun op => op.fresh = ∅ := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
    List.nil_append, List.Forall]
  repeat' constructor

/-- The lines touch TensorCore references only. -/
theorem tail_sub : ∀ ops ∈ (tailOps (F := F)), ops.Forall fun op => op.bufs ⊆ StableHlo.tcRefs τ sig := by
  intro ops hops
  simp only [tailOps, List.mem_cons, List.mem_nil_iff, or_false] at hops
  rcases hops with rfl | rfl | rfl | rfl | rfl | rfl | rfl | rfl | rfl | rfl | rfl | rfl | rfl | rfl | rfl
  · exact hostOps1_sub
  · exact hostOps1_1_sub
  · exact hostOps1_2_sub
  · exact hostOps1_3_sub
  · exact hostOps1_4_sub
  · exact hostOps1_5_sub
  · exact hostOps1_6_sub
  · exact hostOps1_7_sub
  · exact hostOps1_8_sub
  · exact hostOps1_9_sub
  · exact hostOps1_10_sub
  · exact hostOps1_11_sub
  · exact hostOps1_12_sub
  · exact hostOps1_13_sub
  · exact hostOps1_14_sub

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The lines touch the pipeline's arrays and the buffers that bypass the region only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)

theorem sfx_fresh : ∀ ops ∈ (tailOps (F := F)), ∀ op ∈ ops, op.fresh = ∅ := fun ops hops op hop =>
  (List.forall_iff_forall_mem.mp tail_fresh) op (mem_tail hops hop)

/-- Each window's array is one of the six kept references. -/
theorem arr_kept : ∀ w : Fin 3, Pipeline.arrRef spec0 w ∈ kept := by decide

theorem sfx_keeps : ∀ ops ∈ (tailOps (F := F)), ∀ op ∈ ops,
    ∀ w, Proc.devRef .tc (Pipeline.arrRef spec0 w) ∉ op.writes := fun ops hops op hop w =>
  (List.forall_iff_forall_mem.mp tail_keeps) op (mem_tail hops hop) _ (arr_kept w)

/-- What a kept reference that is no window's array holds after the lines: its launch contents. -/
theorem tail_kept (dats : (p : Fin 1) → (c : Dev nD) → Dat τ (Elt F) Unit ℕ (UR sig nD τ) ℕ (cfgs p) c) (c : Dev nD)
    (r : Ref sig .tc) (hr : r ∈ kept) (hne : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _
      (fun op hop => (List.forall_iff_forall_mem.mp tail_keeps) op hop r hr),
    Pipeline.withArrays_of_ne _ c (V0 m c) _ r hne]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body resets the running total: the point is the grid's first. -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val = 0 :=
  (by decide +kernel : ∀ t : Fin grid0.N, first (grid0.coords t) ↔ t.val = 0)

/-- The body stores the total into the result window: the point is the grid's last. -/
abbrev last (i : grid0.Coords) : Prop := k0_cond2 i = 1#1
theorem last_iff : ∀ t : Fin cfg0.N, last (grid0.coords t) ↔ t.val = 7 :=
  (by decide +kernel : ∀ t : Fin grid0.N, last (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle and is not written back. -/
theorem idleAt0_2 : ∀ t : Fin cfg0.N, ¬last (grid0.coords t) → cfg0.idle 2 (grid0.coords t) = true := by decide +kernel
theorem noFlush0_2 : ∀ t : Fin cfg0.N, ¬last (grid0.coords t) → (cfg0.win 2).flush t = false := by decide +kernel
theorem liveAt0_2 : ∀ t : Fin cfg0.N, last (grid0.coords t) → cfg0.idle 2 (grid0.coords t) = false := by decide +kernel

/-! ## The memrefs the body is called with -/

/-- One staging buffer of the result window, through which its contents are stated. -/
abbrev VO : View sig .tc .vmem S1x1 .f32 := (Memref.whole cc0_stg2_0 : Memref sig .tc .vmem S1x1 .f32).view
abbrev ms0_0 (t : Fin cfg0.N) : Memref sig .tc .vmem S32x3x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x3x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch word that carries the running total between points. -/
abbrev scM : Memref sig .tc .vmem S1x1 .f32 := Memref.whole cc0_scratch0
abbrev VS : View sig .tc .vmem S1x1 .f32 := scM.view

/-- The launch's invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Recon

end
-- ==== Proof.Bits.FirstPoint.lean ====
/-
  The body at the grid's FIRST point: the scratch word, whatever it held, is stored with zero, then the two
  input blocks are loaded and the scratch is stored with zero plus the block's total; the result window is
  not touched. The run finds the pieces the scratch ends with.
-/
import proofs.«112906_j55533927137965_1_alg».proof.Proof.Bits.Region

set_option maxRecDepth 16384

noncomputable section

namespace Cert.Kernel.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the first point: the inputs' staging buffers at their contents and handed back as they
    were, the result window's at `xi2` handed back untouched, the scratch at anything and left with the
    pieces `LS` written. -/
noncomputable def runFirst (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i)
    (x0 x1 : Vec F S32x3x128x128 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Recon

end
-- ==== Proof.Bits.MiddlePoint.lean ====
/-
  The body at a MIDDLE point (neither the first nor the last): the two input blocks are loaded and the
  scratch word, which holds the running total `xs`, is stored with `xs` plus the block's total; the result
  window is not touched.
-/
import proofs.«112906_j55533927137965_1_alg».proof.Proof.Bits.FirstPoint

set_option maxRecDepth 16384

noncomputable section

namespace Cert.Kernel.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a middle point: the scratch at `xs` and left with the pieces `LS` written. -/
noncomputable def runMiddle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i)
    (x0 x1 : Vec F S32x3x128x128 .f32) (xs : Vec F S1x1 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Recon

end
-- ==== Proof.Bits.LastPoint.lean ====
/-
  The body at the grid's LAST point: the two input blocks are loaded, the scratch word, which holds the
  running total `xs`, is stored with `xs` plus the block's total, and that word is then copied into the
  result window's staging buffer, whatever it held.
-/
import proofs.«112906_j55533927137965_1_alg».proof.Proof.Bits.MiddlePoint

set_option maxRecDepth 16384

noncomputable section

namespace Cert.Kernel.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the last point: the scratch at `xs` and left with the pieces `LS` written, the result
    window's buffer at anything and left with the pieces `L2` written. -/
noncomputable def runLast (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i)
    (x0 x1 : Vec F S32x3x128x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__recon_kernel i arg1 harg1 arg2 harg2 arg3 harg3 arg4 harg4) K } := by
  refine ⟨?_, ?_, fun E K => ?run⟩
  case run =>
    simp only [cc0__recon_kernel_eq_skeleton]; unfold cc0__recon_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Recon

end
-- ==== Proof.Bits.Frame.lean ====
/-
  The frame of this namespace's kernel program, and what its region leaves behind. Point by point: at the first
  point the scratch word ends at the first case's pieces over anything; at a later point at that case's pieces
  over what the point before left; at the last point the result window's staging buffer ends at the pieces
  that copy the scratch word. The region invariant carries the scratch word at exactly that contents between
  points. With the proof data so fixed the body obligation is the three case runs, and the library's frame
  run for an @main that continues after its region with host lines gives: the pipeline's arrays at what the
  proof data say, every other buffer as the host lines leave it.
-/
import proofs.«112906_j55533927137965_1_alg».proof.Proof.Bits.LastPoint

set_option maxRecDepth 16384

noncomputable section

namespace Cert.Kernel.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's pieces cover the scratch word. -/
theorem scover_first (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i) (x0 x1 : Vec F S32x3x128x128 .f32) (y : S1x1.Idx) :
    ∃ pc ∈ (runFirst c i arg1 harg1 arg2 harg2 arg3 harg3 arg4 harg4 hc0 hc1 x0 x1).2.1, y ∈ pc.1.set :=
  View.cover_of_tiledL (runFirst c i arg1 harg1 arg2 harg2 arg3 harg3 arg4 harg4 hc0 hc1 x0 x1).2.1 S1x1.size (by sl_kernel_rfl) y

/-- What the first point leaves in the scratch word. -/
def sout_first (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i) (x0 x1 : Vec F S32x3x128x128 .f32) : Vec F S1x1 .f32 :=
  VS.read (Elt F) (VS.writes (Elt F) VS.junk (runFirst c i arg1 harg1 arg2 harg2 arg3 harg3 arg4 harg4 hc0 hc1 x0 x1).2.1)

/-- The result window is not stored at the first point: a placeholder nothing consults. -/
def out_first (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i) (x0 x1 : Vec F S32x3x128x128 .f32) : Vec F S1x1 .f32 :=
  VO.read (Elt F) (VO.writes (Elt F) VO.junk (runFirst c i arg1 harg1 arg2 harg2 arg3 harg3 arg4 harg4 hc0 hc1 x0 x1).1)

theorem scover_middle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i) (x0 x1 : Vec F S32x3x128x128 .f32) (xs : Vec F S1x1 .f32) (y : S1x1.Idx) :
    ∃ pc ∈ (runMiddle c i arg1 harg1 arg2 harg2 arg3 harg3 arg4 harg4 hc0 hc1 x0 x1 xs).2.1, y ∈ pc.1.set :=
  View.cover_of_tiledL (runMiddle c i arg1 harg1 arg2 harg2 arg3 harg3 arg4 harg4 hc0 hc1 x0 x1 xs).2.1 S1x1.size (by sl_kernel_rfl) y

/-- What a middle point leaves in the scratch word, over what the point before left (`xs`). -/
def sout_middle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i) (x0 x1 : Vec F S32x3x128x128 .f32) (xs : Vec F S1x1 .f32) : Vec F S1x1 .f32 :=
  VS.read (Elt F) (VS.writes (Elt F) VS.junk (runMiddle c i arg1 harg1 arg2 harg2 arg3 harg3 arg4 harg4 hc0 hc1 x0 x1 xs).2.1)

def out_middle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i) (x0 x1 : Vec F S32x3x128x128 .f32) (xs : Vec F S1x1 .f32) : Vec F S1x1 .f32 :=
  VO.read (Elt F) (VO.writes (Elt F) VO.junk (runMiddle c i arg1 harg1 arg2 harg2 arg3 harg3 arg4 harg4 hc0 hc1 x0 x1 xs).1)

theorem scover_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) (y : S1x1.Idx) :
    ∃ pc ∈ (runLast c i arg1 harg1 arg2 harg2 arg3 harg3 arg4 harg4 hc0 hc1 x0 x1 xs).2.1, y ∈ pc.1.set :=
  View.cover_of_tiledL (runLast c i arg1 harg1 arg2 harg2 arg3 harg3 arg4 harg4 hc0 hc1 x0 x1 xs).2.1 S1x1.size (by sl_kernel_rfl) y

/-- What the last point leaves in the scratch word. -/
def sout_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) : Vec F S1x1 .f32 :=
  VS.read (Elt F) (VS.writes (Elt F) VS.junk (runLast c i arg1 harg1 arg2 harg2 arg3 harg3 arg4 harg4 hc0 hc1 x0 x1 xs).2.1)

/-- The last point's one store covers the result window's block. -/
theorem cover_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) (y : S1x1.Idx) :
    ∃ pc ∈ (runLast c i arg1 harg1 arg2 harg2 arg3 harg3 arg4 harg4 hc0 hc1 x0 x1 xs).1, y ∈ pc.1.set :=
  View.cover_of_tiledL (runLast c i arg1 harg1 arg2 harg2 arg3 harg3 arg4 harg4 hc0 hc1 x0 x1 xs).1 S1x1.size (by sl_kernel_rfl) y

/-- What the last point leaves in the result window's staging buffer. -/
def out_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) : Vec F S1x1 .f32 :=
  VO.read (Elt F) (VO.writes (Elt F) VO.junk (runLast c i arg1 harg1 arg2 harg2 arg3 harg3 arg4 harg4 hc0 hc1 x0 x1 xs).1)

/-! ## Point by point -/

/-- What the result window's staging buffer and the scratch word hold after the body at position `n`. -/
def outsAt0 (c : Dev nD) : (n : ℕ) → n < cfg0.N → Vec F S1x1 .f32 × Vec F S1x1 .f32
  | 0, hn =>
    (out_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((first_iff ⟨0, hn⟩).mpr rfl) (fun h => absurd ((last_iff ⟨0, hn⟩).mp h) (show ¬((0 : ℕ) = 7) from by decide)) (iblk m c 0 ⟨0, hn⟩) (iblk m c 1 ⟨0, hn⟩),
     sout_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((first_iff ⟨0, hn⟩).mpr rfl) (fun h => absurd ((last_iff ⟨0, hn⟩).mp h) (show ¬((0 : ℕ) = 7) from by decide)) (iblk m c 0 ⟨0, hn⟩) (iblk m c 1 ⟨0, hn⟩))
  | n + 1, hn =>
    if h1 : n + 1 = 7 then
      (out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) ((last_iff ⟨n + 1, hn⟩).mpr h1) (iblk m c 0 ⟨n + 1, hn⟩) (iblk m c 1 ⟨n + 1, hn⟩) (outsAt0 c n (Nat.lt_of_succ_lt hn)).2,
       sout_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) ((last_iff ⟨n + 1, hn⟩).mpr h1) (iblk m c 0 ⟨n + 1, hn⟩) (iblk m c 1 ⟨n + 1, hn⟩) (outsAt0 c n (Nat.lt_of_succ_lt hn)).2)
    else
      (out_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) (fun h => h1 ((last_iff ⟨n + 1, hn⟩).mp h)) (iblk m c 0 ⟨n + 1, hn⟩) (iblk m c 1 ⟨n + 1, hn⟩) (outsAt0 c n (Nat.lt_of_succ_lt hn)).2,
       sout_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) (fun h => h1 ((last_iff ⟨n + 1, hn⟩).mp h)) (iblk m c 0 ⟨n + 1, hn⟩) (iblk m c 1 ⟨n + 1, hn⟩) (outsAt0 c n (Nat.lt_of_succ_lt hn)).2)

theorem outsAt0_first (c : Dev nD) (t : Fin cfg0.N) (h0 : t.val = 0) (h1 : ¬t.val = 7) :
    outsAt0 m c t.val t.isLt =
      (out_first c (grid0.coords t) (ms0_0 t) (hs0_0 t) (ms0_1 t) (hs0_1 t) (ms0_2 t) (hs0_2 t) scM (Memref.isWhole_whole _) ((first_iff t).mpr h0) (fun h => h1 ((last_iff t).mp h)) (iblk m c 0 t) (iblk m c 1 t),
       sout_first c (grid0.coords t) (ms0_0 t) (hs0_0 t) (ms0_1 t) (hs0_1 t) (ms0_2 t) (hs0_2 t) scM (Memref.isWhole_whole _) ((first_iff t).mpr h0) (fun h => h1 ((last_iff t).mp h)) (iblk m c 0 t) (iblk m c 1 t)) := by
  obtain ⟨n, hn⟩ := t
  cases n with
  | zero => exact rfl
  | succ n => exact absurd h0 (Nat.succ_ne_zero n)

theorem outsAt0_middle (c : Dev nD) (t : Fin cfg0.N) (h0 : ¬t.val = 0) (h1 : ¬t.val = 7) :
    outsAt0 m c t.val t.isLt =
      (out_middle c (grid0.coords t) (ms0_0 t) (hs0_0 t) (ms0_1 t) (hs0_1 t) (ms0_2 t) (hs0_2 t) scM (Memref.isWhole_whole _) (fun h => h0 ((first_iff t).mp h)) (fun h => h1 ((last_iff t).mp h)) (iblk m c 0 t) (iblk m c 1 t) (outsAt0 m c (t.val - 1) (Nat.lt_of_le_of_lt (Nat.sub_le _ _) t.isLt)).2,
       sout_middle c (grid0.coords t) (ms0_0 t) (hs0_0 t) (ms0_1 t) (hs0_1 t) (ms0_2 t) (hs0_2 t) scM (Memref.isWhole_whole _) (fun h => h0 ((first_iff t).mp h)) (fun h => h1 ((last_iff t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

theorem outsAt0_last (c : Dev nD) (t : Fin cfg0.N) (h0 : ¬t.val = 0) (h1 : t.val = 7) :
    outsAt0 m c t.val t.isLt =
      (out_last c (grid0.coords t) (ms0_0 t) (hs0_0 t) (ms0_1 t) (hs0_1 t) (ms0_2 t) (hs0_2 t) scM (Memref.isWhole_whole _) (fun h => h0 ((first_iff t).mp h)) ((last_iff t).mpr h1) (iblk m c 0 t) (iblk m c 1 t) (outsAt0 m c (t.val - 1) (Nat.lt_of_le_of_lt (Nat.sub_le _ _) t.isLt)).2,
       sout_last c (grid0.coords t) (ms0_0 t) (hs0_0 t) (ms0_1 t) (hs0_1 t) (ms0_2 t) (hs0_2 t) scM (Memref.isWhole_whole _) (fun h => h0 ((first_iff t).mp h)) ((last_iff t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the launch's; afterwards the scratch word
    at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt0 m c (n - 1) (by omega)).2)) ∗ (∃ r, prngReg c r)) := by
  cases n with
  | zero => exact absurd rfl hz
  | succ n => rfl

/-! ## The proof data -/

/-- The pipeline's proof data on core `c`: the arrays as the region finds them; after the body each input's
    buffer at its block, the result window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the point's position says which case it is
    in; the invariant hands the body the scratch word at what the point before left (at anything at the first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have h1 : ¬t.val = 7 := by omega
    have hl : ¬last (grid0.coords t) := fun h => h1 ((last_iff t).mp h)
    rw [Dat.leavesExact_idle (dats m 0 c) 2 t (idleAt0_2 t hl) (noFlush0_2 t hl)]
    rw [outsAt0_first m c t h0 h1]
    unfold sout_first; (try dsimp only)
    rw [PhiS_castSucc m c t, PhiS_zero m c _ _ h0, PhiA0_eq]
    iintro ⟨⟨HS0, Hg⟩, Ho, ⟨%d0, H0⟩, ⟨%d1, H1⟩, ⟨%d2, H2⟩⟩
    iapply ((runFirst c (grid0.coords t) _ _ _ _ _ _ _ _ ((first_iff t).mpr h0) hl (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover_first c _ _ _ _ _ _ _ _ _ _ _ _ _)
      iexact Hg
    isplitl [Ho]; · iexact Ho
    isplitl [H0]; · iexact H0
    isplitl [H1]; · iexact H1
    iexists _; iexact H2
  · have hf : ¬first (grid0.coords t) := fun h => h0 ((first_iff t).mp h)
    by_cases h1 : t.val = 7
    · have hl : last (grid0.coords t) := (last_iff t).mpr h1
      rw [show (dats m 0 c).leavesExact 2 t = owns (c : Thread nD τ) (ms0_2 t) fullShare ((dats m 0 c).after 2 t) from by
        unfold Dat.leavesExact; rw [liveAt0_2 t hl], after0_2]
      rw [outsAt0_last m c t h0 h1]
      unfold out_last sout_last; (try dsimp only)
      rw [PhiS_castSucc m c t, PhiS_pos m c _ _ h0]
      iintro ⟨⟨HS0, Hg⟩, Ho, ⟨%d0, H0⟩, ⟨%d1, H1⟩, ⟨%d2, H2⟩⟩
      iapply ((runLast c (grid0.coords t) _ _ _ _ _ _ _ _ hf hl (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover_last c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last c _ _ _ _ _ _ _ _ _ _ _ _ _ _)
    · have hl : ¬last (grid0.coords t) := fun h => h1 ((last_iff t).mp h)
      rw [Dat.leavesExact_idle (dats m 0 c) 2 t (idleAt0_2 t hl) (noFlush0_2 t hl)]
      rw [outsAt0_middle m c t h0 h1]
      unfold sout_middle; (try dsimp only)
      rw [PhiS_castSucc m c t, PhiS_pos m c _ _ h0]
      iintro ⟨⟨HS0, Hg⟩, Ho, ⟨%d0, H0⟩, ⟨%d1, H1⟩, ⟨%d2, H2⟩⟩
      iapply ((runMiddle c (grid0.coords t) _ _ _ _ _ _ _ _ hf hl (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover_middle c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- Every weakly fair execution of @main terminates, and every final state has the pipeline's arrays at what
    the proof data say and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The five argument arrays end as launched: the two the pipeline stages are inputs, which it only reads;
    the other three bypass the region and no host line writes them. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans (A_eq m c 0)),
   ((h c).1 1).trans (((dats m 0 c).arrAt_in 1 rfl _).trans (A_eq m c 1)),
   ((h c).2 main_arg2 (Pipeline.mem_restRefs_of main_arg2 (by decide) (by decide))).trans (tail_kept m (dats m) c main_arg2 (by decide) (by decide)),
   ((h c).2 main_arg3 (Pipeline.mem_restRefs_of main_arg3 (by decide) (by decide))).trans (tail_kept m (dats m) c main_arg3 (by decide) (by decide)),
   ((h c).2 main_arg4 (Pipeline.mem_restRefs_of main_arg4 (by decide) (by decide))).trans (tail_kept m (dats m) c main_arg4 (by decide) (by decide))⟩

/-- THE FRAME of the program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Recon

end
-- ==== Proof.Ideal.Region.lean ====
/-
  The one pallas_call of the program, seen from @main: the region comes first and every host line follows it.
  This module fixes what the later modules are stated over: the host lines after the region as a list of
  lists (`tailOps`), that none of them writes an argument array or the region's result array, that @main is
  the region continued by those lines, the blocks of the three windows, the two conditions of the body
  (`first`: the grid's first point, where the running total is reset; `last`: its last point, where the
  total is stored into the result window), and the region invariant's form: the scratch word that carries
  the running total, owned whole, and the generator register.
-/
import proofs.«112906_j55533927137965_1_alg».proof.Proof.Gen.KernelIdeal.Launch
import proofs.«112906_j55533927137965_1_alg».proof.Proof.Gen.KernelIdeal.Skeleton
import proofs.«112906_j55533927137965_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- Every host line of @main, in order: they all follow the region. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch contents (no host line comes before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The references no host line may write: the five argument arrays and the region's result array. -/
abbrev kept : List (Ref sig .tc) := [main_arg0, main_arg1, main_arg2, main_arg3, main_arg4, main_v0]

/-- No host line writes one of them: each line writes its own result buffer only, and that is none of the six. -/
theorem tail_keeps : (tailOps (F := F)).flatten.Forall fun op => ∀ r ∈ kept, Proc.devRef (τ := τ) .tc r ∉ op.writes := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro r hr
    simp only [kept, List.mem_cons, List.mem_nil_iff, or_false] at hr
    rcases hr with rfl | rfl | rfl | rfl | rfl | rfl <;> exact StableHlo.devRef_ne_of_ne (by decide)

/-- Membership in one of the lists is membership in their concatenation. -/
theorem mem_tail {ops : List (HloOp τ sig (Elt F))} (hops : ops ∈ (tailOps (F := F))) {op : HloOp τ sig (Elt F)} (hop : op ∈ ops) :
    op ∈ (tailOps (F := F)).flatten := List.mem_flatten.mpr ⟨ops, hops, hop⟩

/-- The lines allocate nothing. -/
theorem tail_fresh : (tailOps (F := F)).flatten.Forall fun op => op.fresh = ∅ := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
    List.nil_append, List.Forall]
  repeat' constructor

/-- The lines touch TensorCore references only. -/
theorem tail_sub : ∀ ops ∈ (tailOps (F := F)), ops.Forall fun op => op.bufs ⊆ StableHlo.tcRefs τ sig := by
  intro ops hops
  simp only [tailOps, List.mem_cons, List.mem_nil_iff, or_false] at hops
  rcases hops with rfl | rfl | rfl | rfl | rfl | rfl | rfl | rfl | rfl | rfl | rfl | rfl | rfl | rfl | rfl
  · exact hostOps1_sub
  · exact hostOps1_1_sub
  · exact hostOps1_2_sub
  · exact hostOps1_3_sub
  · exact hostOps1_4_sub
  · exact hostOps1_5_sub
  · exact hostOps1_6_sub
  · exact hostOps1_7_sub
  · exact hostOps1_8_sub
  · exact hostOps1_9_sub
  · exact hostOps1_10_sub
  · exact hostOps1_11_sub
  · exact hostOps1_12_sub
  · exact hostOps1_13_sub
  · exact hostOps1_14_sub

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The lines touch the pipeline's arrays and the buffers that bypass the region only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)

theorem sfx_fresh : ∀ ops ∈ (tailOps (F := F)), ∀ op ∈ ops, op.fresh = ∅ := fun ops hops op hop =>
  (List.forall_iff_forall_mem.mp tail_fresh) op (mem_tail hops hop)

/-- Each window's array is one of the six kept references. -/
theorem arr_kept : ∀ w : Fin 3, Pipeline.arrRef spec0 w ∈ kept := by decide

theorem sfx_keeps : ∀ ops ∈ (tailOps (F := F)), ∀ op ∈ ops,
    ∀ w, Proc.devRef .tc (Pipeline.arrRef spec0 w) ∉ op.writes := fun ops hops op hop w =>
  (List.forall_iff_forall_mem.mp tail_keeps) op (mem_tail hops hop) _ (arr_kept w)

/-- What a kept reference that is no window's array holds after the lines: its launch contents. -/
theorem tail_kept (dats : (p : Fin 1) → (c : Dev nD) → Dat τ (Elt F) Unit ℕ (UR sig nD τ) ℕ (cfgs p) c) (c : Dev nD)
    (r : Ref sig .tc) (hr : r ∈ kept) (hne : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _
      (fun op hop => (List.forall_iff_forall_mem.mp tail_keeps) op hop r hr),
    Pipeline.withArrays_of_ne _ c (V0 m c) _ r hne]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body resets the running total: the point is the grid's first. -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val = 0 :=
  (by decide +kernel : ∀ t : Fin grid0.N, first (grid0.coords t) ↔ t.val = 0)

/-- The body stores the total into the result window: the point is the grid's last. -/
abbrev last (i : grid0.Coords) : Prop := k0_cond2 i = 1#1
theorem last_iff : ∀ t : Fin cfg0.N, last (grid0.coords t) ↔ t.val = 7 :=
  (by decide +kernel : ∀ t : Fin grid0.N, last (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle and is not written back. -/
theorem idleAt0_2 : ∀ t : Fin cfg0.N, ¬last (grid0.coords t) → cfg0.idle 2 (grid0.coords t) = true := by decide +kernel
theorem noFlush0_2 : ∀ t : Fin cfg0.N, ¬last (grid0.coords t) → (cfg0.win 2).flush t = false := by decide +kernel
theorem liveAt0_2 : ∀ t : Fin cfg0.N, last (grid0.coords t) → cfg0.idle 2 (grid0.coords t) = false := by decide +kernel

/-! ## The memrefs the body is called with -/

/-- One staging buffer of the result window, through which its contents are stated. -/
abbrev VO : View sig .tc .vmem S1x1 .f32 := (Memref.whole cc0_stg2_0 : Memref sig .tc .vmem S1x1 .f32).view
abbrev ms0_0 (t : Fin cfg0.N) : Memref sig .tc .vmem S32x3x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x3x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch word that carries the running total between points. -/
abbrev scM : Memref sig .tc .vmem S1x1 .f32 := Memref.whole cc0_scratch0
abbrev VS : View sig .tc .vmem S1x1 .f32 := scM.view

/-- The launch's invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Recon

end
-- ==== Proof.Ideal.FirstPoint.lean ====
/-
  The body at the grid's FIRST point: the scratch word, whatever it held, is stored with zero, then the two
  input blocks are loaded and the scratch is stored with zero plus the block's total; the result window is
  not touched. The run finds the pieces the scratch ends with.
-/
import proofs.«112906_j55533927137965_1_alg».proof.Proof.Ideal.Region

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the first point: the inputs' staging buffers at their contents and handed back as they
    were, the result window's at `xi2` handed back untouched, the scratch at anything and left with the
    pieces `LS` written. -/
noncomputable def runFirst (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i)
    (x0 x1 : Vec F S32x3x128x128 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Recon

end
-- ==== Proof.Ideal.MiddlePoint.lean ====
/-
  The body at a MIDDLE point (neither the first nor the last): the two input blocks are loaded and the
  scratch word, which holds the running total `xs`, is stored with `xs` plus the block's total; the result
  window is not touched.
-/
import proofs.«112906_j55533927137965_1_alg».proof.Proof.Ideal.FirstPoint

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a middle point: the scratch at `xs` and left with the pieces `LS` written. -/
noncomputable def runMiddle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i)
    (x0 x1 : Vec F S32x3x128x128 .f32) (xs : Vec F S1x1 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Recon

end
-- ==== Proof.Ideal.LastPoint.lean ====
/-
  The body at the grid's LAST point: the two input blocks are loaded, the scratch word, which holds the
  running total `xs`, is stored with `xs` plus the block's total, and that word is then copied into the
  result window's staging buffer, whatever it held.
-/
import proofs.«112906_j55533927137965_1_alg».proof.Proof.Ideal.MiddlePoint

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the last point: the scratch at `xs` and left with the pieces `LS` written, the result
    window's buffer at anything and left with the pieces `L2` written. -/
noncomputable def runLast (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i)
    (x0 x1 : Vec F S32x3x128x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__recon_kernel i arg1 harg1 arg2 harg2 arg3 harg3 arg4 harg4) K } := by
  refine ⟨?_, ?_, fun E K => ?run⟩
  case run =>
    simp only [cc0__recon_kernel_eq_skeleton]; unfold cc0__recon_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Recon

end
-- ==== Proof.Ideal.Frame.lean ====
/-
  The frame of this namespace's kernel program, and what its region leaves behind. Point by point: at the first
  point the scratch word ends at the first case's pieces over anything; at a later point at that case's pieces
  over what the point before left; at the last point the result window's staging buffer ends at the pieces
  that copy the scratch word. The region invariant carries the scratch word at exactly that contents between
  points. With the proof data so fixed the body obligation is the three case runs, and the library's frame
  run for an @main that continues after its region with host lines gives: the pipeline's arrays at what the
  proof data say, every other buffer as the host lines leave it.
-/
import proofs.«112906_j55533927137965_1_alg».proof.Proof.Ideal.LastPoint

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's pieces cover the scratch word. -/
theorem scover_first (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i) (x0 x1 : Vec F S32x3x128x128 .f32) (y : S1x1.Idx) :
    ∃ pc ∈ (runFirst c i arg1 harg1 arg2 harg2 arg3 harg3 arg4 harg4 hc0 hc1 x0 x1).2.1, y ∈ pc.1.set :=
  View.cover_of_tiledL (runFirst c i arg1 harg1 arg2 harg2 arg3 harg3 arg4 harg4 hc0 hc1 x0 x1).2.1 S1x1.size (by sl_kernel_rfl) y

/-- What the first point leaves in the scratch word. -/
def sout_first (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i) (x0 x1 : Vec F S32x3x128x128 .f32) : Vec F S1x1 .f32 :=
  VS.read (Elt F) (VS.writes (Elt F) VS.junk (runFirst c i arg1 harg1 arg2 harg2 arg3 harg3 arg4 harg4 hc0 hc1 x0 x1).2.1)

/-- The result window is not stored at the first point: a placeholder nothing consults. -/
def out_first (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : first i) (hc1 : ¬last i) (x0 x1 : Vec F S32x3x128x128 .f32) : Vec F S1x1 .f32 :=
  VO.read (Elt F) (VO.writes (Elt F) VO.junk (runFirst c i arg1 harg1 arg2 harg2 arg3 harg3 arg4 harg4 hc0 hc1 x0 x1).1)

theorem scover_middle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i) (x0 x1 : Vec F S32x3x128x128 .f32) (xs : Vec F S1x1 .f32) (y : S1x1.Idx) :
    ∃ pc ∈ (runMiddle c i arg1 harg1 arg2 harg2 arg3 harg3 arg4 harg4 hc0 hc1 x0 x1 xs).2.1, y ∈ pc.1.set :=
  View.cover_of_tiledL (runMiddle c i arg1 harg1 arg2 harg2 arg3 harg3 arg4 harg4 hc0 hc1 x0 x1 xs).2.1 S1x1.size (by sl_kernel_rfl) y

/-- What a middle point leaves in the scratch word, over what the point before left (`xs`). -/
def sout_middle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i) (x0 x1 : Vec F S32x3x128x128 .f32) (xs : Vec F S1x1 .f32) : Vec F S1x1 .f32 :=
  VS.read (Elt F) (VS.writes (Elt F) VS.junk (runMiddle c i arg1 harg1 arg2 harg2 arg3 harg3 arg4 harg4 hc0 hc1 x0 x1 xs).2.1)

def out_middle (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : ¬last i) (x0 x1 : Vec F S32x3x128x128 .f32) (xs : Vec F S1x1 .f32) : Vec F S1x1 .f32 :=
  VO.read (Elt F) (VO.writes (Elt F) VO.junk (runMiddle c i arg1 harg1 arg2 harg2 arg3 harg3 arg4 harg4 hc0 hc1 x0 x1 xs).1)

theorem scover_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) (y : S1x1.Idx) :
    ∃ pc ∈ (runLast c i arg1 harg1 arg2 harg2 arg3 harg3 arg4 harg4 hc0 hc1 x0 x1 xs).2.1, y ∈ pc.1.set :=
  View.cover_of_tiledL (runLast c i arg1 harg1 arg2 harg2 arg3 harg3 arg4 harg4 hc0 hc1 x0 x1 xs).2.1 S1x1.size (by sl_kernel_rfl) y

/-- What the last point leaves in the scratch word. -/
def sout_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) : Vec F S1x1 .f32 :=
  VS.read (Elt F) (VS.writes (Elt F) VS.junk (runLast c i arg1 harg1 arg2 harg2 arg3 harg3 arg4 harg4 hc0 hc1 x0 x1 xs).2.1)

/-- The last point's one store covers the result window's block. -/
theorem cover_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) (y : S1x1.Idx) :
    ∃ pc ∈ (runLast c i arg1 harg1 arg2 harg2 arg3 harg3 arg4 harg4 hc0 hc1 x0 x1 xs).1, y ∈ pc.1.set :=
  View.cover_of_tiledL (runLast c i arg1 harg1 arg2 harg2 arg3 harg3 arg4 harg4 hc0 hc1 x0 x1 xs).1 S1x1.size (by sl_kernel_rfl) y

/-- What the last point leaves in the result window's staging buffer. -/
def out_last (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬first i) (hc1 : last i) (x0 x1 : Vec F S32x3x128x128 .f32) (xs : Vec F S1x1 .f32) : Vec F S1x1 .f32 :=
  VO.read (Elt F) (VO.writes (Elt F) VO.junk (runLast c i arg1 harg1 arg2 harg2 arg3 harg3 arg4 harg4 hc0 hc1 x0 x1 xs).1)

/-! ## Point by point -/

/-- What the result window's staging buffer and the scratch word hold after the body at position `n`. -/
def outsAt0 (c : Dev nD) : (n : ℕ) → n < cfg0.N → Vec F S1x1 .f32 × Vec F S1x1 .f32
  | 0, hn =>
    (out_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((first_iff ⟨0, hn⟩).mpr rfl) (fun h => absurd ((last_iff ⟨0, hn⟩).mp h) (show ¬((0 : ℕ) = 7) from by decide)) (iblk m c 0 ⟨0, hn⟩) (iblk m c 1 ⟨0, hn⟩),
     sout_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((first_iff ⟨0, hn⟩).mpr rfl) (fun h => absurd ((last_iff ⟨0, hn⟩).mp h) (show ¬((0 : ℕ) = 7) from by decide)) (iblk m c 0 ⟨0, hn⟩) (iblk m c 1 ⟨0, hn⟩))
  | n + 1, hn =>
    if h1 : n + 1 = 7 then
      (out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) ((last_iff ⟨n + 1, hn⟩).mpr h1) (iblk m c 0 ⟨n + 1, hn⟩) (iblk m c 1 ⟨n + 1, hn⟩) (outsAt0 c n (Nat.lt_of_succ_lt hn)).2,
       sout_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) ((last_iff ⟨n + 1, hn⟩).mpr h1) (iblk m c 0 ⟨n + 1, hn⟩) (iblk m c 1 ⟨n + 1, hn⟩) (outsAt0 c n (Nat.lt_of_succ_lt hn)).2)
    else
      (out_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) (fun h => h1 ((last_iff ⟨n + 1, hn⟩).mp h)) (iblk m c 0 ⟨n + 1, hn⟩) (iblk m c 1 ⟨n + 1, hn⟩) (outsAt0 c n (Nat.lt_of_succ_lt hn)).2,
       sout_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => absurd ((first_iff ⟨n + 1, hn⟩).mp h) (Nat.succ_ne_zero n)) (fun h => h1 ((last_iff ⟨n + 1, hn⟩).mp h)) (iblk m c 0 ⟨n + 1, hn⟩) (iblk m c 1 ⟨n + 1, hn⟩) (outsAt0 c n (Nat.lt_of_succ_lt hn)).2)

theorem outsAt0_first (c : Dev nD) (t : Fin cfg0.N) (h0 : t.val = 0) (h1 : ¬t.val = 7) :
    outsAt0 m c t.val t.isLt =
      (out_first c (grid0.coords t) (ms0_0 t) (hs0_0 t) (ms0_1 t) (hs0_1 t) (ms0_2 t) (hs0_2 t) scM (Memref.isWhole_whole _) ((first_iff t).mpr h0) (fun h => h1 ((last_iff t).mp h)) (iblk m c 0 t) (iblk m c 1 t),
       sout_first c (grid0.coords t) (ms0_0 t) (hs0_0 t) (ms0_1 t) (hs0_1 t) (ms0_2 t) (hs0_2 t) scM (Memref.isWhole_whole _) ((first_iff t).mpr h0) (fun h => h1 ((last_iff t).mp h)) (iblk m c 0 t) (iblk m c 1 t)) := by
  obtain ⟨n, hn⟩ := t
  cases n with
  | zero => exact rfl
  | succ n => exact absurd h0 (Nat.succ_ne_zero n)

theorem outsAt0_middle (c : Dev nD) (t : Fin cfg0.N) (h0 : ¬t.val = 0) (h1 : ¬t.val = 7) :
    outsAt0 m c t.val t.isLt =
      (out_middle c (grid0.coords t) (ms0_0 t) (hs0_0 t) (ms0_1 t) (hs0_1 t) (ms0_2 t) (hs0_2 t) scM (Memref.isWhole_whole _) (fun h => h0 ((first_iff t).mp h)) (fun h => h1 ((last_iff t).mp h)) (iblk m c 0 t) (iblk m c 1 t) (outsAt0 m c (t.val - 1) (Nat.lt_of_le_of_lt (Nat.sub_le _ _) t.isLt)).2,
       sout_middle c (grid0.coords t) (ms0_0 t) (hs0_0 t) (ms0_1 t) (hs0_1 t) (ms0_2 t) (hs0_2 t) scM (Memref.isWhole_whole _) (fun h => h0 ((first_iff t).mp h)) (fun h => h1 ((last_iff t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

theorem outsAt0_last (c : Dev nD) (t : Fin cfg0.N) (h0 : ¬t.val = 0) (h1 : t.val = 7) :
    outsAt0 m c t.val t.isLt =
      (out_last c (grid0.coords t) (ms0_0 t) (hs0_0 t) (ms0_1 t) (hs0_1 t) (ms0_2 t) (hs0_2 t) scM (Memref.isWhole_whole _) (fun h => h0 ((first_iff t).mp h)) ((last_iff t).mpr h1) (iblk m c 0 t) (iblk m c 1 t) (outsAt0 m c (t.val - 1) (Nat.lt_of_le_of_lt (Nat.sub_le _ _) t.isLt)).2,
       sout_last c (grid0.coords t) (ms0_0 t) (hs0_0 t) (ms0_1 t) (hs0_1 t) (ms0_2 t) (hs0_2 t) scM (Memref.isWhole_whole _) (fun h => h0 ((first_iff t).mp h)) ((last_iff t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the launch's; afterwards the scratch word
    at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt0 m c (n - 1) (by omega)).2)) ∗ (∃ r, prngReg c r)) := by
  cases n with
  | zero => exact absurd rfl hz
  | succ n => rfl

/-! ## The proof data -/

/-- The pipeline's proof data on core `c`: the arrays as the region finds them; after the body each input's
    buffer at its block, the result window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the point's position says which case it is
    in; the invariant hands the body the scratch word at what the point before left (at anything at the first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have h1 : ¬t.val = 7 := by omega
    have hl : ¬last (grid0.coords t) := fun h => h1 ((last_iff t).mp h)
    rw [Dat.leavesExact_idle (dats m 0 c) 2 t (idleAt0_2 t hl) (noFlush0_2 t hl)]
    rw [outsAt0_first m c t h0 h1]
    unfold sout_first; (try dsimp only)
    rw [PhiS_castSucc m c t, PhiS_zero m c _ _ h0, PhiA0_eq]
    iintro ⟨⟨HS0, Hg⟩, Ho, ⟨%d0, H0⟩, ⟨%d1, H1⟩, ⟨%d2, H2⟩⟩
    iapply ((runFirst c (grid0.coords t) _ _ _ _ _ _ _ _ ((first_iff t).mpr h0) hl (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover_first c _ _ _ _ _ _ _ _ _ _ _ _ _)
      iexact Hg
    isplitl [Ho]; · iexact Ho
    isplitl [H0]; · iexact H0
    isplitl [H1]; · iexact H1
    iexists _; iexact H2
  · have hf : ¬first (grid0.coords t) := fun h => h0 ((first_iff t).mp h)
    by_cases h1 : t.val = 7
    · have hl : last (grid0.coords t) := (last_iff t).mpr h1
      rw [show (dats m 0 c).leavesExact 2 t = owns (c : Thread nD τ) (ms0_2 t) fullShare ((dats m 0 c).after 2 t) from by
        unfold Dat.leavesExact; rw [liveAt0_2 t hl], after0_2]
      rw [outsAt0_last m c t h0 h1]
      unfold out_last sout_last; (try dsimp only)
      rw [PhiS_castSucc m c t, PhiS_pos m c _ _ h0]
      iintro ⟨⟨HS0, Hg⟩, Ho, ⟨%d0, H0⟩, ⟨%d1, H1⟩, ⟨%d2, H2⟩⟩
      iapply ((runLast c (grid0.coords t) _ _ _ _ _ _ _ _ hf hl (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover_last c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last c _ _ _ _ _ _ _ _ _ _ _ _ _ _)
    · have hl : ¬last (grid0.coords t) := fun h => h1 ((last_iff t).mp h)
      rw [Dat.leavesExact_idle (dats m 0 c) 2 t (idleAt0_2 t hl) (noFlush0_2 t hl)]
      rw [outsAt0_middle m c t h0 h1]
      unfold sout_middle; (try dsimp only)
      rw [PhiS_castSucc m c t, PhiS_pos m c _ _ h0]
      iintro ⟨⟨HS0, Hg⟩, Ho, ⟨%d0, H0⟩, ⟨%d1, H1⟩, ⟨%d2, H2⟩⟩
      iapply ((runMiddle c (grid0.coords t) _ _ _ _ _ _ _ _ hf hl (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover_middle c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- Every weakly fair execution of @main terminates, and every final state has the pipeline's arrays at what
    the proof data say and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The five argument arrays end as launched: the two the pipeline stages are inputs, which it only reads;
    the other three bypass the region and no host line writes them. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans (A_eq m c 0)),
   ((h c).1 1).trans (((dats m 0 c).arrAt_in 1 rfl _).trans (A_eq m c 1)),
   ((h c).2 main_arg2 (Pipeline.mem_restRefs_of main_arg2 (by decide) (by decide))).trans (tail_kept m (dats m) c main_arg2 (by decide) (by decide)),
   ((h c).2 main_arg3 (Pipeline.mem_restRefs_of main_arg3 (by decide) (by decide))).trans (tail_kept m (dats m) c main_arg3 (by decide) (by decide)),
   ((h c).2 main_arg4 (Pipeline.mem_restRefs_of main_arg4 (by decide) (by decide))).trans (tail_kept m (dats m) c main_arg4 (by decide) (by decide))⟩

/-- THE FRAME of the program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Recon

end
-- ==== Proof.Ideal.Total.lean ====
/-
  What the region leaves in its result array. Each case's found pieces read back as ONE payload: the first
  point leaves the update of the reset word, a later point the update of what the point before left, and
  the last point copies that updated word into the result window. So the scratch word after point `n` is the
  running total `acc n` (an induction on the point), the result window's buffer after the last point is
  `acc 7`, and since the window is written back once, at the last point, and its one block is the whole
  [1,1] array, the result array ends at `acc 7`.
-/
import proofs.«112906_j55533927137965_1_alg».proof.Proof.Ideal.Frame
import Idealize.ShloMosaic.Lib.Pipeline.Value

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Each case's pieces, read back -/

/-- A middle point leaves the update of the word the scratch held. -/
theorem sout_middle_eq (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : ¬first i) (hc1 : ¬last i) (x0 x1 : Vec F S32x3x128x128 .f32) (xs : Vec F S1x1 .f32) :
    sout_middle c i a1 h1 a2 h2 a3 h3 a4 h4 hc0 hc1 x0 x1 xs = k0_pay2 x0 x1 xs := by
  unfold sout_middle
  rw [View.read_writes_eq_canon _ _ _ (scover_middle c i a1 h1 a2 h2 a3 h3 a4 h4 hc0 hc1 x0 x1 xs)]
  unfold runMiddle
  dsimp only
  rw [View.canon_unit_zero hz2]
  simp only [View.readAt_eq_ld, h1.read_unread, h2.read_unread, h4.read_unread, View.ld_unit_zero (S := S32x3x128x128) hz4, View.ld_unit_zero (S := S1x1) hz2]

/-- The first point stores the reset word, reads it back and leaves its update. -/
theorem sout_first_eq (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : first i) (hc1 : ¬last i) (x0 x1 : Vec F S32x3x128x128 .f32) :
    sout_first c i a1 h1 a2 h2 a3 h3 a4 h4 hc0 hc1 x0 x1 = k0_pay2 x0 x1 (k0_pay1 (F := F)) := by
  unfold sout_first
  rw [View.read_writes_eq_canon _ _ _ (scover_first c i a1 h1 a2 h2 a3 h3 a4 h4 hc0 hc1 x0 x1)]
  unfold runFirst
  dsimp only
  sl_unfold_words
  rw [View.canon_cons_unit_zero (S := S1x1) hz2, View.readCov_unit_zero (S := S1x1) _ hz2]
  simp only [View.readAt_eq_ld, h1.read_unread, h2.read_unread, View.ld_unit_zero (S := S32x3x128x128) hz4]

/-- The last point leaves in the scratch the update of the word it held, -/
theorem sout_last_eq (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : ¬first i) (hc1 : last i) (x0 x1 : Vec F S32x3x128x128 .f32) (xs : Vec F S1x1 .f32) :
    sout_last c i a1 h1 a2 h2 a3 h3 a4 h4 hc0 hc1 x0 x1 xs = k0_pay2 x0 x1 xs := by
  unfold sout_last
  rw [View.read_writes_eq_canon _ _ _ (scover_last c i a1 h1 a2 h2 a3 h3 a4 h4 hc0 hc1 x0 x1 xs)]
  unfold runLast
  dsimp only
  sl_unfold_words
  rw [View.canon_unit_zero hz2]
  simp only [View.readAt_eq_ld, h1.read_unread, h2.read_unread, h4.read_unread, View.ld_unit_zero (S := S32x3x128x128) hz4, View.ld_unit_zero (S := S1x1) hz2]

/-- and in the result window's buffer a copy of it. -/
theorem out_last_eq (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : ¬first i) (hc1 : last i) (x0 x1 : Vec F S32x3x128x128 .f32) (xs : Vec F S1x1 .f32) :
    out_last c i a1 h1 a2 h2 a3 h3 a4 h4 hc0 hc1 x0 x1 xs = k0_pay2 x0 x1 xs := by
  unfold out_last
  rw [View.read_writes_eq_canon _ _ _ (cover_last c i a1 h1 a2 h2 a3 h3 a4 h4 hc0 hc1 x0 x1 xs)]
  unfold runLast
  dsimp only
  sl_unfold_words
  rw [View.canon_unit_zero hz2, View.readCov_unit_zero (S := S1x1) _ hz2]
  simp only [View.readAt_eq_ld, h1.read_unread, h2.read_unread, h4.read_unread, View.ld_unit_zero (S := S32x3x128x128) hz4, View.ld_unit_zero (S := S1x1) hz2]

/-! ## The running total -/

/-- The two input blocks at a point, at their literal type. -/
abbrev xblk (c : Dev nD) (t : Fin cfg0.N) : Vec F S32x3x128x128 .f32 := iblk m c 0 t
abbrev oblk (c : Dev nD) (t : Fin cfg0.N) : Vec F S32x3x128x128 .f32 := iblk m c 1 t

/-- The running total after point `n`: the update of the reset word by block 0, then of each total by the next block. -/
def acc (c : Dev nD) : (n : ℕ) → n < cfg0.N → Vec F S1x1 .f32
  | 0, h => k0_pay2 (xblk m c ⟨0, h⟩) (oblk m c ⟨0, h⟩) (k0_pay1 (F := F))
  | n + 1, h => k0_pay2 (xblk m c ⟨n + 1, h⟩) (oblk m c ⟨n + 1, h⟩) (acc c n (Nat.lt_of_succ_lt h))

/-- The scratch word after point `n` is the running total. -/
theorem scratch_eq (c : Dev nD) : ∀ (n : ℕ) (h : n < cfg0.N), (outsAt0 m c n h).2 = acc m c n h
  | 0, h => by
    rw [outsAt0_first m c ⟨0, h⟩ rfl (show ¬((0 : ℕ) = 7) from by decide)]
    dsimp only
    rw [sout_first_eq]
    rfl
  | n + 1, h => by
    by_cases h7 : n + 1 = 7
    · rw [outsAt0_last m c ⟨n + 1, h⟩ (Nat.succ_ne_zero n) h7]
      dsimp only
      rw [sout_last_eq]
      show k0_pay2 _ _ (outsAt0 m c n _).2 = k0_pay2 _ _ (acc m c n _)
      rw [scratch_eq c n]
    · rw [outsAt0_middle m c ⟨n + 1, h⟩ (Nat.succ_ne_zero n) h7]
      dsimp only
      rw [sout_middle_eq]
      show k0_pay2 _ _ (outsAt0 m c n _).2 = k0_pay2 _ _ (acc m c n _)
      rw [scratch_eq c n]

theorem lt7 : 7 < cfg0.N := by rw [show cfg0.N = 8 from N_0]; decide

/-- The result window's buffer after the last point is the running total too. -/
theorem out_eq (c : Dev nD) : (outsAt0 m c 7 lt7).1 = acc m c 7 lt7 := by
  rw [show outsAt0 m c 7 lt7 = outsAt0 m c (⟨7, lt7⟩ : Fin cfg0.N).val (⟨7, lt7⟩ : Fin cfg0.N).isLt from rfl,
    outsAt0_last m c ⟨7, lt7⟩ (by decide) rfl]
  dsimp only
  rw [out_last_eq]
  show k0_pay2 _ _ (outsAt0 m c 6 _).2 = k0_pay2 _ _ (acc m c 6 _)
  rw [scratch_eq m c 6]

/-- The region's result: the running total after the last point, as the contents of the [1,1] result array. -/
abbrev result (c : Dev nD) : Buf (Elt F) ((c : Thread nD τ).loc main_v0) := acc m c 7 lt7

/-- The one write-back, at the last point, writes it: block (0,0) of the [1,1] array is the array. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  rw [show outsAt0 m c (t0_7 : Fin cfg0.N).val (t0_7 : Fin cfg0.N).isLt = outsAt0 m c 7 lt7 from rfl, out_eq]
  have hz' : (fun a => win0_2.index t0_7 a * main_v0.ty.shape.size a) = fun _ => 0 := funext fun a => by fin_cases a <;> decide
  exact (Memref.read_access_unit_zero (Elt F) main_v0 hz' (fun a => by rw [congrFun hz' a]; simp) (result m c)).symm

/-- So the result array ends at the running total after the last point. -/
theorem final_o (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

end Cert.KernelIdeal.Recon

end
-- ==== Proof.Sums.lean ====
/-
  The sums that join the kernel's accumulation by tiles to the reference's two reductions, read at the
  extended reals: there a float is an extended real, a float sum is the sum of an additive commutative
  monoid, and sums regroup freely, with no finiteness asked of any term.

  Two facts carry everything. An add-reduction sends each source index to exactly one reduced index, so
  the sum of its results over every reduced index is the sum of its source over every index
  (`sum_reduceAdd`: the fibres of the dropping map partition the source's index set). A shape cast matches
  the two index sets one to one by row-major position, so it keeps the sum over every index
  (`sum_shapeCast`). The kernel's chain (axis 3, axis 2, axis 1, a cast, axis 1 again into a single word)
  and the reference's pair of reductions (three axes at once, then the last) are then both the sum over
  every index of their source. Last, the index set of the whole array is cut along axis 0 into eight tiles
  of thirty-two rows, and the sum over it is the sum over the tiles of the sums over each tile
  (`tiles_total`).
-/
import proofs.«112906_j55533927137965_1_alg».proof.Proof.Gen.KernelIdeal.Skeleton
import Idealize.ShloMosaic.PureOps.Ideal.Laws
import Idealize.ShloMosaic.Lib.IdealHost
import Idealize.ShloMosaic.Lib.ValueIdx
import Idealize.ShloMosaic.Lib.Pipeline.Value

set_option maxRecDepth 16384

noncomputable section

namespace Cert.Recon.Sums

open Idealize.ShloMosaic Idealize.ShloMosaic.ValueIdx Cert.KernelIdeal Cert.KernelIdeal.Gen
open scoped BigOperators

/-- The sum of an add-reduction's results over every reduced index is the sum of its source over every index:
    each source index drops to exactly one reduced index, so the fibres of the dropping map partition the
    source's index set. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- So for a float `vector.multi_reduction <add>` read at the extended reals. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- A shape cast matches the two index sets one to one (by row-major position), so it keeps the sum over
    every index. -/
theorem sum_shapeCast {s t : Shape} (x : s.Idx → EReal) (h : s.ShapeCasts t) :
    ∑ j : t.Idx, shapeCast t x h j = ∑ i : s.Idx, x i :=
  Equiv.sum_comp (Shape.reshapeEquiv h) x

/-- The kernel's chain of reductions of a block `v`: over axis 3, then 2, then 1, a cast of the 32 sums to one
    row, over that row, a cast to one word, and the word read out. Each reduction keeps the sum over every
    index of its source and so does each cast; the last reduction, into a single index, is the sum over every
    index of its source. -/
theorem chain_total (v : FVec Ideal S32x3x128x128 .f32)
    (h3 : S32x3x128x128.Reduces [3] S32x3x128) (h2 : S32x3x128.Reduces [2] S32x3) (h1 : S32x3.Reduces [1] S32)
    (hc : S32.ShapeCasts S1x32) (h1' : S1x32.Reduces [1] S1) (hc' : S1.ShapeCasts S1x1)
    (hp : ∀ a, (![0, 0] : Fin 2 → Nat) a < S1x1.size a)
    (hφ : FKind.Formats .f32) (hacc : (0x00000000#32 : BitVec 32) = FKind.add.neutral .f32 hφ) :
    extractAt ![0, 0]
      (shapeCast S1x1
        (multiReduction .add [1] S1
          (shapeCast S1x32
            (multiReduction .add [1] S32
              (multiReduction .add [2] S32x3
                (multiReduction .add [3] S32x3x128 v 0x00000000#32 h3 hφ hacc)
                0x00000000#32 h2 hφ hacc)
              0x00000000#32 h1 hφ hacc) hc)
          0x00000000#32 h1' hφ hacc) hc') hp
      = ∑ y : S32x3x128x128.Idx, v y := by
  unfold extractAt shapeCast
  refine (Ideal.multiReduction_add_total _ _ h1' (fun b => by fin_cases b; rfl) hφ hacc _).trans ?_
  refine (sum_shapeCast _ hc).trans ?_
  refine (sum_multiReduction_add _ _ h1 hφ hacc).trans ?_
  refine (sum_multiReduction_add _ _ h2 hφ hacc).trans ?_
  exact sum_multiReduction_add _ _ h3 hφ hacc

/-- The tile and the place in it of an index of the whole array: row `r` on axis 0 is row `r % 32` of tile
    `r / 32`; the other coordinates are kept. -/
def tileOf (i : S256x3x128x128.Idx) : Fin 8 × S32x3x128x128.Idx :=
  (⟨(i 0).val / 32, by have h : (i 0).val < 256 := (i 0).isLt; omega⟩,
   ix4 ⟨(i 0).val % 32, Nat.mod_lt _ (by norm_num)⟩ (i 1) (i 2) (i 3))

/-- One point's update of the running total: the word it held plus the sum over the whole block of |x0 - x1|. -/
theorem block_total (x0 x1 : FVec Ideal S32x3x128x128 .f32) (acc : FVec Ideal S1x1 .f32) (j : S1x1.Idx) :
    k0_pay2 (F := Ideal) x0 x1 acc j = acc j + ∑ y : S32x3x128x128.Idx, absf (subf x0 x1) y := by
  unfold k0_pay2
  rw [shapeCast_self]
  exact congrArg (acc j + ·) (chain_total (absf (subf x0 x1)) _ _ _ _ _ _ _ _ _)

/-- The first point's reset word is zero. -/
theorem reset_zero (j : S1x1.Idx) : k0_pay1 (F := Ideal) j = 0 := by
  unfold k0_pay1
  rw [shapeCast_self]
  exact Ideal.ofBits_zero_f32

/-- The reference's two reductions from zero are the sum over every index. -/
theorem ref_total (x xo : FVec Ideal S256x3x128x128 .f32) (h1 : S256x3x128x128.ReducesTo [1, 2, 3] S256)
    (h2 : S256.ReducesTo [0] S_) (hu : 0 < S_.numel) (j : S_.Idx) :
    Host.reduceAdd (F := Ideal)
        (Host.reduceAdd (F := Ideal) (Host.absf (F := Ideal) (subf x xo)) (constant (F := Ideal) S_ .f32 0x00000000#32) h1 hu)
        (constant (F := Ideal) S_ .f32 0x00000000#32) h2 hu j
      = ∑ i : S256x3x128x128.Idx, absf (subf x xo) i := by
  have hz : (constant (F := Ideal) S_ .f32 0x00000000#32) (Shape.Idx.first hu) = (0 : EReal) := Ideal.ofBits_zero_f32
  -- the inner reduction at a row: zero plus the sum over the indices of that row
  have hin : ∀ b : S256.Idx,
      Host.reduceAdd (F := Ideal) (Host.absf (F := Ideal) (subf x xo)) (constant (F := Ideal) S_ .f32 0x00000000#32) h1 hu b
        = ∑ i ∈ Finset.univ.filter (fun i => h1.drop i = b), absf (subf x xo) i := fun b => by
    refine (hostReduceAdd_apply _ _ h1 hu b).trans ?_
    unfold Ideal.hostReduceAdd
    rw [hz, zero_add]
    rfl
  refine (hostReduceAdd_apply _ _ h2 hu j).trans ?_
  refine (Ideal.hostReduceAdd_total h2 (fun b => b.elim0) _ _ j).trans ?_
  rw [hz, zero_add, Finset.sum_congr rfl (fun b _ => hin b)]
  exact Finset.sum_fiberwise Finset.univ (fun i => h1.drop i) _

/-- A sum over the [256,3,128,128] index set is the sum over 8 tiles of 32 along axis 0 of the sums over the tile, for
    any family of embeddings e that puts tile t's coordinate y at 32·t + y 0 on axis 0 and at y a on the others. -/
theorem tiles_total (g : S256x3x128x128.Idx → EReal) (e : Fin 8 → S32x3x128x128.Idx → S256x3x128x128.Idx)
    (he0 : ∀ t y, ((e t y) 0).val = 32 * t.val + (y 0).val)
    (he : ∀ t y (a : Fin 4), a ≠ 0 → ((e t y) a).val = (y a).val) :
    ∑ i : S256x3x128x128.Idx, g i = ∑ t : Fin 8, ∑ y : S32x3x128x128.Idx, g (e t y) := by
  -- the pairs (tile, place in the tile) correspond one to one to the indices of the whole array
  have hl : ∀ p : Fin 8 × S32x3x128x128.Idx, tileOf (e p.1 p.2) = p := fun ⟨t, y⟩ => by
    have hy : (y 0).val < 32 := (y 0).isLt
    refine Prod.ext (Fin.ext ?_) (funext fun a => Fin.ext ?_)
    · show ((e t y) 0).val / 32 = t.val
      rw [he0]; omega
    · match a with
      | ⟨0, _⟩ => show ((e t y) 0).val % 32 = (y 0).val; rw [he0]; omega
      | ⟨1, _⟩ => exact he t y 1 (by decide)
      | ⟨2, _⟩ => exact he t y 2 (by decide)
      | ⟨3, _⟩ => exact he t y 3 (by decide)
  have hr : ∀ i : S256x3x128x128.Idx, e (tileOf i).1 (tileOf i).2 = i := fun i => by
    refine funext fun a => Fin.ext ?_
    match a with
    | ⟨0, _⟩ =>
      refine (he0 _ _).trans ?_
      show 32 * ((i 0).val / 32) + (i 0).val % 32 = (i 0).val
      omega
    | ⟨1, _⟩ => exact he _ _ 1 (by decide)
    | ⟨2, _⟩ => exact he _ _ 2 (by decide)
    | ⟨3, _⟩ => exact he _ _ 3 (by decide)
  rw [← Fintype.sum_prod_type']
  exact (Fintype.sum_equiv
    (⟨fun p : Fin 8 × S32x3x128x128.Idx => e p.1 p.2, tileOf, hl, hr⟩ : Fin 8 × S32x3x128x128.Idx ≃ S256x3x128x128.Idx)
    (fun p => g (e p.1 p.2)) g (fun _ => rfl)).symm

end Cert.Recon.Sums

end
-- ==== Proof.Ideal.Sum.lean ====
/-
  At the ideal instance the running total is a sum. One point adds to the word it finds the sum of |x - y|
  over its block; the reset word is zero; so after the last point the region's word is the sum, over the 8
  tiles, of the tile's sum. A tile's block reads the arrays at (32·t + p, c, h, w), both windows alike, so the
  tiles' sums regroup into the sum over the whole [256,3,128,128] index set.
-/
import proofs.«112906_j55533927137965_1_alg».proof.Proof.Ideal.Total
import proofs.«112906_j55533927137965_1_alg».proof.Proof.Sums

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Recon.Sums
open scoped BigOperators

variable (mI : (ℓ : Loc nD τ sig) → Buf (Elt Ideal) ℓ)

/-- Where tile `t`'s coordinate `y` sits in the whole array: the first window's block embedding. -/
abbrev emb (t : Fin cfg0.N) (y : S32x3x128x128.Idx) : S256x3x128x128.Idx := ((cfg0.win 0).blk t).view.emb y

/-- The two windows' index maps: the tile number on axis 0, zero elsewhere. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

theorem emb_0 (t : Fin cfg0.N) (y : S32x3x128x128.Idx) : ((emb t y) 0).val = 32 * t.val + (y 0).val := by
  show win0_0.index t 0 * 32 + 1 * (y 0).val = 32 * t.val + (y 0).val
  rw [(idx0 t).1]; omega

theorem emb_ne (t : Fin cfg0.N) (y : S32x3x128x128.Idx) (a : Fin 4) (ha : a ≠ 0) : ((emb t y) a).val = (y a).val := by
  match a with
  | ⟨0, _⟩ => exact absurd rfl ha
  | ⟨1, _⟩ => show win0_0.index t 1 * 3 + 1 * (y 1).val = (y 1).val; rw [(idx0 t).2.1]; omega
  | ⟨2, _⟩ => show win0_0.index t 2 * 128 + 1 * (y 2).val = (y 2).val; rw [(idx0 t).2.2.1]; omega
  | ⟨3, _⟩ => show win0_0.index t 3 * 128 + 1 * (y 3).val = (y 3).val; rw [(idx0 t).2.2.2]; omega

/-- The second window's block sits at the same place. -/
theorem emb1_eq (t : Fin cfg0.N) (y : S32x3x128x128.Idx) : ((cfg0.win 1).blk t).view.emb y = emb t y := by
  funext a
  apply Fin.ext
  match a with
  | ⟨0, _⟩ => show win0_1.index t 0 * 32 + 1 * (y 0).val = win0_0.index t 0 * 32 + 1 * (y 0).val; rw [(idx0 t).1, (idx1 t).1]
  | ⟨1, _⟩ => show win0_1.index t 1 * 3 + 1 * (y 1).val = win0_0.index t 1 * 3 + 1 * (y 1).val; rw [(idx0 t).2.1, (idx1 t).2.1]
  | ⟨2, _⟩ => show win0_1.index t 2 * 128 + 1 * (y 2).val = win0_0.index t 2 * 128 + 1 * (y 2).val; rw [(idx0 t).2.2.1, (idx1 t).2.2.1]
  | ⟨3, _⟩ => show win0_1.index t 3 * 128 + 1 * (y 3).val = win0_0.index t 3 * 128 + 1 * (y 3).val; rw [(idx0 t).2.2.2, (idx1 t).2.2.2]

/-- The two argument arrays on core `c`. -/
abbrev xarr (c : Dev nD) : FVec Ideal S256x3x128x128 .f32 := mI ((c : Thread nD τ).loc main_arg0)
abbrev oarr (c : Dev nD) : FVec Ideal S256x3x128x128 .f32 := mI ((c : Thread nD τ).loc main_arg1)

theorem xblk_apply (c : Dev nD) (t : Fin cfg0.N) (y : S32x3x128x128.Idx) : xblk mI c t y = xarr mI c (emb t y) := by
  unfold xblk iblk
  rw [View.read_apply]
  rfl

theorem oblk_apply (c : Dev nD) (t : Fin cfg0.N) (y : S32x3x128x128.Idx) : oblk mI c t y = oarr mI c (emb t y) := by
  unfold oblk iblk
  rw [View.read_apply, emb1_eq]
  rfl

/-- A tile's sum of |x - y| over its block is the sum of the arrays' |x - y| at the tile's places. -/
theorem tile_sum (c : Dev nD) (t : Fin cfg0.N) :
    ∑ y : S32x3x128x128.Idx, absf (subf (xblk mI c t) (oblk mI c t)) y
      = ∑ y : S32x3x128x128.Idx, absf (subf (xarr mI c) (oarr mI c)) (emb t y) :=
  Finset.sum_congr rfl fun y _ => by
    show FloatOps.absf (FloatOps.subf (xblk mI c t y) (oblk mI c t y)) = FloatOps.absf (FloatOps.subf (xarr mI c (emb t y)) (oarr mI c (emb t y)))
    rw [xblk_apply, oblk_apply]

/-- The sum of tile `t`, for any natural number (zero past the grid). -/
def tileSum (c : Dev nD) (t : ℕ) : EReal :=
  if h : t < cfg0.N then ∑ y : S32x3x128x128.Idx, absf (subf (xarr mI c) (oarr mI c)) (emb ⟨t, h⟩ y) else 0

/-- The running total after point `n` is the sum of the tiles up to `n`. -/
theorem acc_apply (c : Dev nD) (j : S1x1.Idx) : ∀ (n : ℕ) (h : n < cfg0.N),
    acc mI c n h j = ∑ t ∈ Finset.range (n + 1), tileSum mI c t
  | 0, h => by
    show k0_pay2 (F := Ideal) (xblk mI c ⟨0, h⟩) (oblk mI c ⟨0, h⟩) (k0_pay1 (F := Ideal)) j = _
    rw [block_total, reset_zero, zero_add, tile_sum, Finset.sum_range_one]
    unfold tileSum
    rw [dif_pos h]
  | n + 1, h => by
    show k0_pay2 (F := Ideal) (xblk mI c ⟨n + 1, h⟩) (oblk mI c ⟨n + 1, h⟩) (acc mI c n (Nat.lt_of_succ_lt h)) j = _
    rw [block_total, acc_apply c j n, tile_sum, Finset.sum_range_succ _ (n + 1)]
    congr 1
    unfold tileSum
    rw [dif_pos h]

/-- The region's word is the sum of |x - y| over the whole index set. -/
theorem result_apply (c : Dev nD) (j : S1x1.Idx) :
    result mI c j = ∑ i : S256x3x128x128.Idx, absf (subf (xarr mI c) (oarr mI c)) i := by
  show acc mI c 7 lt7 j = _
  rw [acc_apply mI c j 7 lt7]
  have hN : cfg0.N = 8 := N_0
  rw [tiles_total (fun i => absf (subf (xarr mI c) (oarr mI c)) i) (fun t y => emb (Fin.cast hN.symm t) y)
    (fun t y => emb_0 _ y) (fun t y a ha => emb_ne _ y a ha)]
  rw [Finset.sum_range]
  refine Finset.sum_congr rfl fun t _ => ?_
  unfold tileSum
  rw [dif_pos (show t.val < cfg0.N from hN ▸ t.isLt)]
  rfl

end Cert.KernelIdeal.Recon

end
-- ==== Proof.Ideal.Tail.lean ====
/-
  What the host lines after the region compute, read off their list once, from any contents `X` of the
  buffers at the region's exit: the first result is the region's [1,1] word reshaped to a scalar and divided
  by 256; the third is the first plus the second. The second result, the divergence terms, reads the label,
  mean and position arrays only and is compared with the reference's as a whole elsewhere.
-/
import proofs.«112906_j55533927137965_1_alg».proof.Proof.Ideal.Region
import Idealize.ShloMosaic.Lib.StableHlo.Run

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

set_option maxHeartbeats 4000000 in
/-- The mean reconstruction term: the region's word, as a scalar, over 256. -/
theorem tail_recon (X : Valuation τ sig (Elt F)) :
    StableHlo.after (tailOps (F := F)).flatten X (Proc.devRef .tc main_v2)
      = Host.divf (shapeCast S_ (X (Proc.devRef .tc main_v0)) shapeCasts_S1x1_S_) (constant S_ .f32 0x43800000#32) := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append, List.nil_append]
  after_results_simp
  try rfl

set_option maxHeartbeats 8000000 in
/-- The last line adds the first two results. -/
theorem tail_total (X : Valuation τ sig (Elt F)) :
    StableHlo.after (tailOps (F := F)).flatten X (Proc.devRef .tc main_v48)
      = addf (StableHlo.after (tailOps (F := F)).flatten X (Proc.devRef .tc main_v2))
          (StableHlo.after (tailOps (F := F)).flatten X (Proc.devRef .tc main_v47)) := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append, List.nil_append]
  after_results_simp
  try rfl

end Cert.KernelIdeal.Recon

end
-- ==== Proof.Ideal.Value.lean ====
/-
  The idealized kernel program's results. The frame run leaves every buffer that bypasses the region as the
  host lines after it compute from the contents at the region's exit: the pipeline's arrays at what the proof
  data say (the result array at the running total after the last point), every other buffer as launched. So
  the three results are those lines read at the exit contents, and at the ideal instance the region's word,
  as a scalar, is the sum of |x - y| over the whole index set.
-/
import proofs.«112906_j55533927137965_1_alg».proof.Proof.Ideal.Sum
import proofs.«112906_j55533927137965_1_alg».proof.Proof.Ideal.Tail

set_option maxRecDepth 16384

noncomputable section

namespace Cert.KernelIdeal.Recon

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Recon.Sums
open scoped BigOperators

/-- The buffers' contents at the region's exit. -/
abbrev exitV (c : Dev nD) : Valuation τ sig (Elt F) :=
  Pipeline.withArrays spec0 c (V0 m c) fun w => (dats m 0 c).arrAt w cfg0.N

/-- At the region's exit its result array holds the running total after the last point. -/
theorem exit_word (c : Dev nD) : exitV m c (Proc.devRef .tc main_v0) = result m c :=
  (Pipeline.withArrays_arr spec0 launch0.win.arr_inj c _ _ 2).trans (final_o m c)

/-- A buffer that is no window's array is there as launched. -/
theorem exit_rest (c : Dev nD) (r : Ref sig .tc) (hne : ∀ w, Pipeline.arrRef spec0 w ≠ r) :
    exitV m c (Proc.devRef .tc r) = m ((c : Thread nD τ).loc r) :=
  Pipeline.withArrays_of_ne _ c (V0 m c) _ r hne

/-- The run, read at the three results: each is the host lines after the region read at the exit contents; the
    argument arrays end as launched. -/
theorem value_run : θ_run defs (onTc (τ := τ) (main (F := F))) ⟨m, fun _ => 0, ρ⟩ (fun r => ∀ c : Dev nD,
      r.2.mem ((c.tc : Thread nD τ).loc main_v2) = StableHlo.after (tailOps (F := F)).flatten (exitV m c) (Proc.devRef .tc main_v2)
      ∧ r.2.mem ((c.tc : Thread nD τ).loc main_v47) = StableHlo.after (tailOps (F := F)).flatten (exitV m c) (Proc.devRef .tc main_v47)
      ∧ r.2.mem ((c.tc : Thread nD τ).loc main_v48) = StableHlo.after (tailOps (F := F)).flatten (exitV m c) (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).2 main_v2 (Pipeline.mem_restRefs_of main_v2 (by decide) (by decide)),
     (h c).2 main_v47 (Pipeline.mem_restRefs_of main_v47 (by decide) (by decide)),
     (h c).2 main_v48 (Pipeline.mem_restRefs_of main_v48 (by decide) (by decide)),
     args_kept m r h c⟩) (run_main m ρ)

variable (mI : (ℓ : Loc nD τ sig) → Buf (Elt Ideal) ℓ)

/-- At the ideal instance the first result is the sum of |x - y| over the whole index set, over 256. -/
theorem recon_val (c : Dev nD) :
    StableHlo.after (tailOps (F := Ideal)).flatten (exitV mI c) (Proc.devRef .tc main_v2)
      = Host.divf (F := Ideal) (fun _ : S_.Idx => ∑ i : S256x3x128x128.Idx, absf (subf (xarr mI c) (oarr mI c)) i) (constant (F := Ideal) S_ .f32 0x43800000#32) := by
  rw [tail_recon]
  congr 1
  funext j
  show exitV mI c (Proc.devRef .tc main_v0) (Shape.reshapeEquiv shapeCasts_S1x1_S_ j) = _
  rw [exit_word]
  exact result_apply mI c _

end Cert.KernelIdeal.Recon

end
-- ==== Proof.Ref.Run.lean ====
/-
  The reference program's run.

  @main of the reference is a straight line of StableHLO operations: sixty-one of its own and seven calls of
  module-local functions, whose bodies are straight lines too (one of them, @nan_to_num, calls @_where three
  times). A call executes the callee's body on the operands, so the program is the line of all ninety-four
  operations in order, each call's operations standing at the call site over that call's own buffers. The
  line is cut into fifteen stretches at the calls: a stretch of @main's own operations, then a callee's body,
  and so on. @main is the sequence of the stretches by unfolding alone; a sequence of stretches run one after
  the other is their concatenation run as one; and a concatenation run as one leaves every buffer at the fold
  of the operations' results over its contents at launch.
-/
import proofs.«112906_j55533927137965_1_alg».proof.Proof.Gen.ReferenceIdeal
import Idealize.ShloMosaic.Lib.StableHlo.Run
import Idealize.ShloMosaic.Lib.Pipeline.Regions

noncomputable section

namespace Cert.ReferenceIdeal.Recon

open Cert.ReferenceIdeal Cert.ReferenceIdeal.Gen Idealize.ShloMosaic Idealize.ShloMosaic.TcCoe Idealize.SL.Sem Idealize.ShloMosaic.StableHlo

/-- Stretches run one after the other are their concatenation run as one line. -/
theorem chain_map_seq {n : Nat} {t : Topo} {s : RefSig} {Val : EltTy → Type} {L : Labels}
    (ls : List (List (HloOp t s Val))) :
    Pipeline.chain (ls.map fun l => (seq l : Prog (TpuEff n t s Val L .tc) PUnit)) = seq ls.flatten := by
  induction ls with
  | nil => rfl
  | cons l ls ih => rw [List.map_cons, Pipeline.chain_cons, List.flatten_cons, seq_append, ih]

variable {F : FTy → Type} [FloatOps F]

/-! ## The stretches -/

/-- @main's own operations before call 0: 19 operations. -/
abbrev ops0 : List (HloOp τ sig (Elt F)) :=
  [ binary main_arg0 main_arg1 main_v0 (subf : (⟨S256x3x128x128, .f32⟩ : BufTy).Contents (Elt F) → (⟨S256x3x128x128, .f32⟩ : BufTy).Contents (Elt F) → (⟨S256x3x128x128, .f32⟩ : BufTy).Contents (Elt F)),
    unary main_v0 main_v1 (Host.absf : (⟨S256x3x128x128, .f32⟩ : BufTy).Contents (Elt F) → (⟨S256x3x128x128, .f32⟩ : BufTy).Contents (Elt F)),
    nullary main_cst (constant S_ .f32 0x00000000#32),
    binary main_v1 main_cst main_v2 ((fun x v => Host.reduceAdd x v reducesTo_S256x3x128x128_S256_d1_2_3 h_S_) : (⟨S256x3x128x128, .f32⟩ : BufTy).Contents (Elt F) → (⟨S_, .f32⟩ : BufTy).Contents (Elt F) → (⟨S256, .f32⟩ : BufTy).Contents (Elt F)),
    nullary main_cst_0 (constant S_ .f32 0x00000000#32),
    binary main_v2 main_cst_0 main_v3 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_1 (constant S_ .f32 0x43800000#32),
    binary main_v3 main_cst_1 main_v4 (Host.divf : (⟨S_, .f32⟩ : BufTy).Contents (Elt F) → (⟨S_, .f32⟩ : BufTy).Contents (Elt F) → (⟨S_, .f32⟩ : BufTy).Contents (Elt F)),
    unary main_arg3 main_v5 ((extractStridedSlice S256x3 ![0, 0] · slices_S256x32_S256x3_0_0) : (⟨S256x32, .f32⟩ : BufTy).Contents (Elt F) → (⟨S256x3, .f32⟩ : BufTy).Contents (Elt F)),
    unary main_arg2 main_v6 ((extractStridedSlice S256x3 ![0, 0] · slices_S256x7_S256x3_0_0) : (⟨S256x7, .f32⟩ : BufTy).Contents (Elt F) → (⟨S256x3, .f32⟩ : BufTy).Contents (Elt F)),
    binary main_v6 main_v6 main_v7 (cmpf .une : (⟨S256x3, .f32⟩ : BufTy).Contents (Elt F) → (⟨S256x3, .f32⟩ : BufTy).Contents (Elt F) → (⟨S256x3, .i1⟩ : BufTy).Contents (Elt F)),
    unary main_v5 main_v8 (broadcastInDim S256x3x1 ![0, 1] bcast_S256x3_S256x3x1_0_1 : (⟨S256x3, .f32⟩ : BufTy).Contents (Elt F) → (⟨S256x3x1, .f32⟩ : BufTy).Contents (Elt F)),
    unary main_arg4 main_v9 (broadcastInDim S1x1x10 ![2] bcast_S10_S1x1x10_2 : (⟨S10, .f32⟩ : BufTy).Contents (Elt F) → (⟨S1x1x10, .f32⟩ : BufTy).Contents (Elt F)),
    unary main_v8 main_v10 (broadcastInDim S256x3x10 ![0, 1, 2] bcast_S256x3x1_S256x3x10_0_1_2 : (⟨S256x3x1, .f32⟩ : BufTy).Contents (Elt F) → (⟨S256x3x10, .f32⟩ : BufTy).Contents (Elt F)),
    unary main_v9 main_v11 (broadcastInDim S256x3x10 ![0, 1, 2] bcast_S1x1x10_S256x3x10_0_1_2 : (⟨S1x1x10, .f32⟩ : BufTy).Contents (Elt F) → (⟨S256x3x10, .f32⟩ : BufTy).Contents (Elt F)),
    binary main_v10 main_v11 main_v12 (subf : (⟨S256x3x10, .f32⟩ : BufTy).Contents (Elt F) → (⟨S256x3x10, .f32⟩ : BufTy).Contents (Elt F) → (⟨S256x3x10, .f32⟩ : BufTy).Contents (Elt F)),
    binary main_v12 main_v12 main_v13 (mulf : (⟨S256x3x10, .f32⟩ : BufTy).Contents (Elt F) → (⟨S256x3x10, .f32⟩ : BufTy).Contents (Elt F) → (⟨S256x3x10, .f32⟩ : BufTy).Contents (Elt F)),
    nullary main_cst_2 (constant S_ .f32 0x7F800000#32),
    binary main_v13 main_cst_2 main_v14 ((fun x v => Host.reduce FloatOps.minimumf x v reducesTo_S256x3x10_S256x3_d2 h_S_) : (⟨S256x3x10, .f32⟩ : BufTy).Contents (Elt F) → (⟨S_, .f32⟩ : BufTy).Contents (Elt F) → (⟨S256x3, .f32⟩ : BufTy).Contents (Elt F)) ]
theorem ops0_sub : (ops0 : List (HloOp τ sig (Elt F))).Forall fun op => op.bufs ⊆ tcRefs τ sig :=
  ⟨binary_bufs_sub .., unary_bufs_sub .., nullary_bufs_sub .., binary_bufs_sub .., nullary_bufs_sub .., binary_bufs_sub .., nullary_bufs_sub .., binary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- @nan_to_num on %6 (its three selects are @_where's bodies, each a broadcast of the scalar and a select): 16 operations. -/
abbrev ops1 : List (HloOp τ sig (Elt F)) :=
  [ TRef.binary (.of main_v6 : TRef sig ⟨S256x3, .f32⟩) (.of main_v6 : TRef sig ⟨S256x3, .f32⟩) main_call0.v0 (cmpf .une),
    TRef.nullary main_call0.cst (constant S_ .f32 0x00000000#32),
    TRef.unary main_call0.cst main_call0.call0.v0 (broadcastInDim S256x3 ![] bcast_S_S256x3),
    TRef.ternary main_call0.v0 main_call0.call0.v0 (.of main_v6 : TRef sig ⟨S256x3, .f32⟩) main_call0.call0.v1 select,
    TRef.nullary main_call0.cst_0 (constant S_ .f32 0x7F800000#32),
    TRef.unary main_call0.cst_0 main_call0.v2 (broadcastInDim S256x3 ![] bcast_S_S256x3),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S256x3 ![] bcast_S_S256x3),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S256x3 ![] bcast_S_S256x3),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S256x3 ![] bcast_S_S256x3),
    TRef.ternary main_call0.v6 main_call0.call2.v0 main_call0.call1.v1 main_call0.call2.v1 select ]
theorem ops1_sub : (ops1 : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl⟩

/-- @main's own operations before call 1: 2 operations. -/
abbrev ops2 : List (HloOp τ sig (Elt F)) :=
  [ nullary main_c (constantI S_ 32 0#32),
    nullary main_c_3 (constantI S_ 32 9#32) ]
theorem ops2_sub : (ops2 : List (HloOp τ sig (Elt F))).Forall fun op => op.bufs ⊆ tcRefs τ sig :=
  ⟨nullary_bufs_sub .., nullary_bufs_sub ..⟩
theorem ops2_fresh : (ops2 : List (HloOp τ sig (Elt F))).Forall fun op => op.fresh = ∅ :=
  ⟨rfl, rfl⟩

/-- @clip on %15 between %c and %c_3: 6 operations. -/
abbrev ops3 : List (HloOp τ sig (Elt F)) :=
  [ TRef.unary (.of main_c : TRef sig ⟨S_, .i32⟩) main_call1.v0 (sitofp .f32),
    TRef.unary main_call1.v0 main_call1.v1 (broadcastInDim S256x3 ![] bcast_S_S256x3),
    TRef.binary main_call1.v1 (.of main_v15 : TRef sig ⟨S256x3, .f32⟩) main_call1.v2 maximumf,
    TRef.unary (.of main_c_3 : TRef sig ⟨S_, .i32⟩) main_call1.v3 (sitofp .f32),
    TRef.unary main_call1.v3 main_call1.v4 (broadcastInDim S256x3 ![] bcast_S_S256x3),
    TRef.binary main_call1.v4 main_call1.v2 main_call1.v5 minimumf ]
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem ops3_fresh : (ops3 : List (HloOp τ sig (Elt F))).Forall fun op => op.fresh = ∅ :=
  ⟨rfl, rfl, rfl, rfl, rfl, rfl⟩

/-- @main's own operations before call 2: 12 operations. -/
abbrev ops4 : List (HloOp τ sig (Elt F)) :=
  [ unary main_v16 main_v17 (fptosi 32 : (⟨S256x3, .f32⟩ : BufTy).Contents (Elt F) → (⟨S256x3, .i32⟩ : BufTy).Contents (Elt F)),
    nullary main_c_4 (constantI S_ 32 0#32),
    unary main_c_4 main_v18 (broadcastInDim S256x3 ![] bcast_S_S256x3 : (⟨S_, .i32⟩ : BufTy).Contents (Elt F) → (⟨S256x3, .i32⟩ : BufTy).Contents (Elt F)),
    binary main_v17 main_v18 main_v19 (cmpi .slt : (⟨S256x3, .i32⟩ : BufTy).Contents (Elt F) → (⟨S256x3, .i32⟩ : BufTy).Contents (Elt F) → (⟨S256x3, .i1⟩ : BufTy).Contents (Elt F)),
    nullary main_c_5 (constantI S_ 32 10#32),
    unary main_c_5 main_v20 (broadcastInDim S256x3 ![] bcast_S_S256x3 : (⟨S_, .i32⟩ : BufTy).Contents (Elt F) → (⟨S256x3, .i32⟩ : BufTy).Contents (Elt F)),
    binary main_v17 main_v20 main_v21 (addi : (⟨S256x3, .i32⟩ : BufTy).Contents (Elt F) → (⟨S256x3, .i32⟩ : BufTy).Contents (Elt F) → (⟨S256x3, .i32⟩ : BufTy).Contents (Elt F)),
    ternary main_v19 main_v21 main_v17 main_v22 (select : (⟨S256x3, .i1⟩ : BufTy).Contents (Elt F) → (⟨S256x3, .i32⟩ : BufTy).Contents (Elt F) → (⟨S256x3, .i32⟩ : BufTy).Contents (Elt F) → (⟨S256x3, .i32⟩ : BufTy).Contents (Elt F)),
    unary main_v22 main_v23 (broadcastInDim S256x3x1 ![0, 1] bcast_S256x3_S256x3x1_0_1 : (⟨S256x3, .i32⟩ : BufTy).Contents (Elt F) → (⟨S256x3x1, .i32⟩ : BufTy).Contents (Elt F)),
    binary main_arg4 main_v23 main_v24 ((fun x i => Host.gather gather_S10_S256x3x1_S256x3_n_0_n_n_0_2_1 x i) : (⟨S10, .f32⟩ : BufTy).Contents (Elt F) → (⟨S256x3x1, .i32⟩ : BufTy).Contents (Elt F) → (⟨S256x3, .f32⟩ : BufTy).Contents (Elt F)),
    binary main_v5 main_v24 main_v25 (subf : (⟨S256x3, .f32⟩ : BufTy).Contents (Elt F) → (⟨S256x3, .f32⟩ : BufTy).Contents (Elt F) → (⟨S256x3, .f32⟩ : BufTy).Contents (Elt F)),
    binary main_v25 main_v25 main_v26 (mulf : (⟨S256x3, .f32⟩ : BufTy).Contents (Elt F) → (⟨S256x3, .f32⟩ : BufTy).Contents (Elt F) → (⟨S256x3, .f32⟩ : BufTy).Contents (Elt F)) ]
theorem ops4_sub : (ops4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
theorem ops4_fresh : (ops4 : List (HloOp τ sig (Elt F))).Forall fun op => op.fresh = ∅ :=
  ⟨rfl, rfl, rfl, rfl, rfl, rfl, rfl, rfl, rfl, rfl, rfl, rfl⟩

/-- @_where_0 (one select): 1 operation. -/
abbrev ops5 : List (HloOp τ sig (Elt F)) :=
  [ TRef.ternary (.of main_v7 : TRef sig ⟨S256x3, .i1⟩) (.of main_v14 : TRef sig ⟨S256x3, .f32⟩) (.of main_v26 : TRef sig ⟨S256x3, .f32⟩) main_call2.v0 select ]
theorem ops5_sub : (ops5 : List (HloOp τ sig (Elt F))).Forall fun op => op.bufs ⊆ tcRefs τ sig :=
  ternary_bufs_sub ..
theorem ops5_fresh : (ops5 : List (HloOp τ sig (Elt F))).Forall fun op => op.fresh = ∅ :=
  rfl

/-- @main's own operations before call 3: 12 operations. -/
abbrev ops6 : List (HloOp τ sig (Elt F)) :=
  [ nullary main_cst_6 (constant S_ .f32 0x00000000#32),
    binary main_v27 main_cst_6 main_v28 ((fun x v => Host.reduceAdd x v reducesTo_S256x3_S3_d0 h_S_) : (⟨S256x3, .f32⟩ : BufTy).Contents (Elt F) → (⟨S_, .f32⟩ : BufTy).Contents (Elt F) → (⟨S3, .f32⟩ : BufTy).Contents (Elt F)),
    nullary main_cst_7 (constant S_ .f32 0x43800000#32),
    unary main_cst_7 main_v29 (broadcastInDim S3 ![] bcast_S_S3 : (⟨S_, .f32⟩ : BufTy).Contents (Elt F) → (⟨S3, .f32⟩ : BufTy).Contents (Elt F)),
    binary main_v28 main_v29 main_v30 (Host.divf : (⟨S3, .f32⟩ : BufTy).Contents (Elt F) → (⟨S3, .f32⟩ : BufTy).Contents (Elt F) → (⟨S3, .f32⟩ : BufTy).Contents (Elt F)),
    nullary main_cst_8 (constant S_ .f32 0x00000000#32),
    binary main_v30 main_cst_8 main_v31 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_arg3 main_v32 ((extractStridedSlice S256x4 ![0, 3] · slices_S256x32_S256x4_0_3) : (⟨S256x32, .f32⟩ : BufTy).Contents (Elt F) → (⟨S256x4, .f32⟩ : BufTy).Contents (Elt F)),
    unary main_arg2 main_v33 ((extractStridedSlice S256x4 ![0, 3] · slices_S256x7_S256x4_0_3) : (⟨S256x7, .f32⟩ : BufTy).Contents (Elt F) → (⟨S256x4, .f32⟩ : BufTy).Contents (Elt F)),
    binary main_v33 main_v33 main_v34 (cmpf .une : (⟨S256x4, .f32⟩ : BufTy).Contents (Elt F) → (⟨S256x4, .f32⟩ : BufTy).Contents (Elt F) → (⟨S256x4, .i1⟩ : BufTy).Contents (Elt F)),
    unary main_v34 main_v35 (noti : (⟨S256x4, .i1⟩ : BufTy).Contents (Elt F) → (⟨S256x4, .i1⟩ : BufTy).Contents (Elt F)),
    nullary main_cst_9 (constant S_ .f32 0x00000000#32) ]
theorem ops6_sub : (ops6 : List (HloOp τ sig (Elt F))).Forall fun op => op.bufs ⊆ tcRefs τ sig :=
  ⟨nullary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub ..⟩
theorem ops6_fresh : (ops6 : List (HloOp τ sig (Elt F))).Forall fun op => op.fresh = ∅ :=
  ⟨rfl, rfl, rfl, rfl, rfl, rfl, rfl, rfl, rfl, rfl, rfl, rfl⟩

/-- @_where_1 on %35, %33, %cst_9: 3 operations. -/
abbrev ops7 : List (HloOp τ sig (Elt F)) :=
  [ TRef.unary (.of main_cst_9 : TRef sig ⟨S_, .f32⟩) main_call3.v0 id,
    TRef.unary main_call3.v0 main_call3.v1 (broadcastInDim S256x4 ![] bcast_S_S256x4),
    TRef.ternary (.of main_v35 : TRef sig ⟨S256x4, .i1⟩) (.of main_v33 : TRef sig ⟨S256x4, .f32⟩) main_call3.v1 main_call3.v2 select ]
theorem ops7_sub : (ops7 : List (HloOp τ sig (Elt F))).Forall fun op => op.bufs ⊆ tcRefs τ sig :=
  ⟨unary_bufs_sub .., unary_bufs_sub .., ternary_bufs_sub ..⟩
theorem ops7_fresh : (ops7 : List (HloOp τ sig (Elt F))).Forall fun op => op.fresh = ∅ :=
  ⟨rfl, rfl, rfl⟩

/-- @main's own operations before call 4: 3 operations. -/
abbrev ops8 : List (HloOp τ sig (Elt F)) :=
  [ binary main_v32 main_v36 main_v37 (subf : (⟨S256x4, .f32⟩ : BufTy).Contents (Elt F) → (⟨S256x4, .f32⟩ : BufTy).Contents (Elt F) → (⟨S256x4, .f32⟩ : BufTy).Contents (Elt F)),
    binary main_v37 main_v37 main_v38 (mulf : (⟨S256x4, .f32⟩ : BufTy).Contents (Elt F) → (⟨S256x4, .f32⟩ : BufTy).Contents (Elt F) → (⟨S256x4, .f32⟩ : BufTy).Contents (Elt F)),
    nullary main_cst_10 (constant S_ .f32 0x00000000#32) ]
theorem ops8_sub : (ops8 : List (HloOp τ sig (Elt F))).Forall fun op => op.bufs ⊆ tcRefs τ sig :=
  ⟨binary_bufs_sub .., binary_bufs_sub .., nullary_bufs_sub ..⟩
theorem ops8_fresh : (ops8 : List (HloOp τ sig (Elt F))).Forall fun op => op.fresh = ∅ :=
  ⟨rfl, rfl, rfl⟩

/-- @_where_1 on %35, %38, %cst_10: 3 operations. -/
abbrev ops9 : List (HloOp τ sig (Elt F)) :=
  [ TRef.unary (.of main_cst_10 : TRef sig ⟨S_, .f32⟩) main_call4.v0 id,
    TRef.unary main_call4.v0 main_call4.v1 (broadcastInDim S256x4 ![] bcast_S_S256x4),
    TRef.ternary (.of main_v35 : TRef sig ⟨S256x4, .i1⟩) (.of main_v38 : TRef sig ⟨S256x4, .f32⟩) main_call4.v1 main_call4.v2 select ]
theorem ops9_sub : (ops9 : List (HloOp τ sig (Elt F))).Forall fun op => op.bufs ⊆ tcRefs τ sig :=
  ⟨unary_bufs_sub .., unary_bufs_sub .., ternary_bufs_sub ..⟩
theorem ops9_fresh : (ops9 : List (HloOp τ sig (Elt F))).Forall fun op => op.fresh = ∅ :=
  ⟨rfl, rfl, rfl⟩

/-- @main's own operations before call 5: 4 operations. -/
abbrev ops10 : List (HloOp τ sig (Elt F)) :=
  [ unary main_v32 main_v40 (Host.absf : (⟨S256x4, .f32⟩ : BufTy).Contents (Elt F) → (⟨S256x4, .f32⟩ : BufTy).Contents (Elt F)),
    nullary main_cst_11 (constant S_ .f32 0x41200000#32),
    unary main_cst_11 main_v41 (broadcastInDim S256x4 ![] bcast_S_S256x4 : (⟨S_, .f32⟩ : BufTy).Contents (Elt F) → (⟨S256x4, .f32⟩ : BufTy).Contents (Elt F)),
    binary main_v40 main_v41 main_v42 (subf : (⟨S256x4, .f32⟩ : BufTy).Contents (Elt F) → (⟨S256x4, .f32⟩ : BufTy).Contents (Elt F) → (⟨S256x4, .f32⟩ : BufTy).Contents (Elt F)) ]
theorem ops10_sub : (ops10 : List (HloOp τ sig (Elt F))).Forall fun op => op.bufs ⊆ tcRefs τ sig :=
  ⟨unary_bufs_sub .., nullary_bufs_sub .., unary_bufs_sub .., binary_bufs_sub ..⟩
theorem ops10_fresh : (ops10 : List (HloOp τ sig (Elt F))).Forall fun op => op.fresh = ∅ :=
  ⟨rfl, rfl, rfl, rfl⟩

/-- @relu on %42: 3 operations. -/
abbrev ops11 : List (HloOp τ sig (Elt F)) :=
  [ TRef.nullary main_call5.cst (constant S_ .f32 0x00000000#32),
    TRef.unary main_call5.cst main_call5.v0 (broadcastInDim S256x4 ![] bcast_S_S256x4),
    TRef.binary (.of main_v42 : TRef sig ⟨S256x4, .f32⟩) main_call5.v0 main_call5.v1 maximumf ]
theorem ops11_sub : (ops11 : List (HloOp τ sig (Elt F))).Forall fun op => op.bufs ⊆ tcRefs τ sig :=
  ⟨nullary_bufs_sub .., unary_bufs_sub .., binary_bufs_sub ..⟩
theorem ops11_fresh : (ops11 : List (HloOp τ sig (Elt F))).Forall fun op => op.fresh = ∅ :=
  ⟨rfl, rfl, rfl⟩

/-- @main's own operations before call 6: 1 operation. -/
abbrev ops12 : List (HloOp τ sig (Elt F)) :=
  [ binary main_v43 main_v43 main_v44 (mulf : (⟨S256x4, .f32⟩ : BufTy).Contents (Elt F) → (⟨S256x4, .f32⟩ : BufTy).Contents (Elt F) → (⟨S256x4, .f32⟩ : BufTy).Contents (Elt F)) ]
theorem ops12_sub : (ops12 : List (HloOp τ sig (Elt F))).Forall fun op => op.bufs ⊆ tcRefs τ sig :=
  binary_bufs_sub ..
theorem ops12_fresh : (ops12 : List (HloOp τ sig (Elt F))).Forall fun op => op.fresh = ∅ :=
  rfl

/-- @_where_2 (one select): 1 operation. -/
abbrev ops13 : List (HloOp τ sig (Elt F)) :=
  [ TRef.ternary (.of main_v35 : TRef sig ⟨S256x4, .i1⟩) (.of main_v39 : TRef sig ⟨S256x4, .f32⟩) (.of main_v44 : TRef sig ⟨S256x4, .f32⟩) main_call6.v0 select ]
theorem ops13_sub : (ops13 : List (HloOp τ sig (Elt F))).Forall fun op => op.bufs ⊆ tcRefs τ sig :=
  ternary_bufs_sub ..
theorem ops13_fresh : (ops13 : List (HloOp τ sig (Elt F))).Forall fun op => op.fresh = ∅ :=
  rfl

/-- @main's last eight operations (the second window): 8 operations. -/
abbrev ops14 : List (HloOp τ sig (Elt F)) :=
  [ nullary main_cst_12 (constant S_ .f32 0x00000000#32),
    binary main_v45 main_cst_12 main_v46 ((fun x v => Host.reduceAdd x v reducesTo_S256x4_S256_d1 h_S_) : (⟨S256x4, .f32⟩ : BufTy).Contents (Elt F) → (⟨S_, .f32⟩ : BufTy).Contents (Elt F) → (⟨S256, .f32⟩ : BufTy).Contents (Elt F)),
    nullary main_cst_13 (constant S_ .f32 0x00000000#32),
    binary main_v46 main_cst_13 main_v47 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_14 (constant S_ .f32 0x43800000#32),
    binary main_v47 main_cst_14 main_v48 (Host.divf : (⟨S_, .f32⟩ : BufTy).Contents (Elt F) → (⟨S_, .f32⟩ : BufTy).Contents (Elt F) → (⟨S_, .f32⟩ : BufTy).Contents (Elt F)),
    binary main_v31 main_v48 main_v49 (addf : (⟨S_, .f32⟩ : BufTy).Contents (Elt F) → (⟨S_, .f32⟩ : BufTy).Contents (Elt F) → (⟨S_, .f32⟩ : BufTy).Contents (Elt F)),
    binary main_v4 main_v49 main_v50 (addf : (⟨S_, .f32⟩ : BufTy).Contents (Elt F) → (⟨S_, .f32⟩ : BufTy).Contents (Elt F) → (⟨S_, .f32⟩ : BufTy).Contents (Elt F)) ]
theorem ops14_sub : (ops14 : List (HloOp τ sig (Elt F))).Forall fun op => op.bufs ⊆ tcRefs τ sig :=
  ⟨nullary_bufs_sub .., binary_bufs_sub .., nullary_bufs_sub .., binary_bufs_sub .., nullary_bufs_sub .., binary_bufs_sub .., binary_bufs_sub .., binary_bufs_sub ..⟩
theorem ops14_fresh : (ops14 : List (HloOp τ sig (Elt F))).Forall fun op => op.fresh = ∅ :=
  ⟨rfl, rfl, rfl, rfl, rfl, rfl, rfl, rfl⟩

/-! ## @main is the line -/

/-- The first window of @main (its statements 1 … 60) is its stretches in order, the last in tail position: the
    functions' definitions unfold at their calls and the records at their fields, and both sides are one chain of
    `hlo` steps once sequencing is reassociated: the two sides are equal by computation. -/
theorem part0_chain (c : Dev nD) : main_part0 (F := F) c = Pipeline.chainK
    [ seq ops0, seq ops1, seq ops2, seq ops3, seq ops4, seq ops5, seq ops6, seq ops7, seq ops8, seq ops9, seq ops10,
      seq ops11, seq ops12 ] (seq ops13) := by
  chain_rfl

/-- The second window (statements 61 … 69, the return the last) is the last stretch. -/
theorem part1_chain (c : Dev nD) : main_part1 (F := F) c = Pipeline.chain [ seq ops14 ] := by
  chain_rfl

/-- @main's host operations, in order, each call's operations inline at the call site. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14))))))))))))))

/-- @main is that line: its two windows are the chains of their stretches, a window followed by a chain is the chain
    of all, and the chain of the stretches is the line of their concatenation. -/
theorem main_eq (c : Dev nD) : main (F := F) c = seq ops := by
  show (main_part0 (F := F) c >>= fun _ => main_part1 (F := F) c) = _
  rw [part1_chain, part0_chain, Pipeline.chainK_bind_chain]
  exact chain_map_seq [ops0, ops1, ops2, ops3, ops4, ops5, ops6, ops7, ops8, ops9, ops10, ops11, ops12, ops13, ops14]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, List.forall_append.2 ⟨ops5_sub, List.forall_append.2 ⟨ops6_sub, List.forall_append.2 ⟨ops7_sub, List.forall_append.2 ⟨ops8_sub, List.forall_append.2 ⟨ops9_sub, List.forall_append.2 ⟨ops10_sub, List.forall_append.2 ⟨ops11_sub, List.forall_append.2 ⟨ops12_sub, List.forall_append.2 ⟨ops13_sub, ops14_sub⟩⟩⟩⟩⟩⟩⟩⟩⟩⟩⟩⟩⟩⟩

/-- Every operation of the line determines its result. -/
theorem ops_fresh : (ops : List (HloOp τ sig (Elt F))).Forall fun op => op.fresh = ∅ :=
  List.forall_append.2 ⟨ops0_fresh, List.forall_append.2 ⟨ops1_fresh, List.forall_append.2 ⟨ops2_fresh, List.forall_append.2 ⟨ops3_fresh, List.forall_append.2 ⟨ops4_fresh, List.forall_append.2 ⟨ops5_fresh, List.forall_append.2 ⟨ops6_fresh, List.forall_append.2 ⟨ops7_fresh, List.forall_append.2 ⟨ops8_fresh, List.forall_append.2 ⟨ops9_fresh, List.forall_append.2 ⟨ops10_fresh, List.forall_append.2 ⟨ops11_fresh, List.forall_append.2 ⟨ops12_fresh, List.forall_append.2 ⟨ops13_fresh, ops14_fresh⟩⟩⟩⟩⟩⟩⟩⟩⟩⟩⟩⟩⟩⟩

/-- On every device, for any float values, from any memory with zero counters: every weakly fair execution of @main
    terminates, and every final state has each TensorCore buffer at the fold of the operations' results over the
    device's contents at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ => List.forall_iff_forall_mem.1 ops_fresh)

end Cert.ReferenceIdeal.Recon

end
-- ==== Proof.Ref.Value.lean ====
/-
  The reference program's results, read off its run.

  After the line of ninety-four operations each buffer holds the fold of the operations' results over its
  contents at launch. Every operation writes its own result buffer and no other, so the fold at one buffer
  is decided operation by operation: at the operation's own result buffer it is the operation's function
  of the operands' contents, at any other buffer what was there before. Three facts follow. The first
  result is the eight leading operations' term — the mean over the batch of the summed absolute
  difference — since nothing later writes its buffer. The third result is the sum of the first two, since
  the last operation adds them into a buffer of its own. No operation writes an argument's buffer, so the
  arguments end as they were launched.
-/
import proofs.«112906_j55533927137965_1_alg».proof.Proof.Ref.Run
import Idealize.ShloMosaic.PureOps.Ideal

noncomputable section

namespace Cert.ReferenceIdeal.Recon

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row. -/
theorem after_app {t : Topo} {s : RefSig} {Val : EltTy → Type} (l₁ l₂ : List (HloOp t s Val)) (V : Valuation t s Val) :
    after (l₁ ++ l₂) V = after l₂ (after l₁ V) := by
  induction l₁ generalizing V with
  | nil => rfl
  | cons op l ih => rw [List.cons_append, after_cons, after_cons, ih]

/-- No operation of the line writes argument 0's buffer: the fold leaves it as it was. -/
theorem kept0 (V : Valuation τ sig (Elt F)) :
    after (ops (F := F)) V (Proc.devRef .tc main_arg0) = V (Proc.devRef .tc main_arg0) := by
  simp (disch := decide) only [ops, after_app, after_cons, after_nil,
    nullary_result_ne', unary_result_ne', binary_result_ne', ternary_result_ne']

/-- No operation of the line writes argument 1's buffer: the fold leaves it as it was. -/
theorem kept1 (V : Valuation τ sig (Elt F)) :
    after (ops (F := F)) V (Proc.devRef .tc main_arg1) = V (Proc.devRef .tc main_arg1) := by
  simp (disch := decide) only [ops, after_app, after_cons, after_nil,
    nullary_result_ne', unary_result_ne', binary_result_ne', ternary_result_ne']

/-- No operation of the line writes argument 2's buffer: the fold leaves it as it was. -/
theorem kept2 (V : Valuation τ sig (Elt F)) :
    after (ops (F := F)) V (Proc.devRef .tc main_arg2) = V (Proc.devRef .tc main_arg2) := by
  simp (disch := decide) only [ops, after_app, after_cons, after_nil,
    nullary_result_ne', unary_result_ne', binary_result_ne', ternary_result_ne']

/-- No operation of the line writes argument 3's buffer: the fold leaves it as it was. -/
theorem kept3 (V : Valuation τ sig (Elt F)) :
    after (ops (F := F)) V (Proc.devRef .tc main_arg3) = V (Proc.devRef .tc main_arg3) := by
  simp (disch := decide) only [ops, after_app, after_cons, after_nil,
    nullary_result_ne', unary_result_ne', binary_result_ne', ternary_result_ne']

/-- No operation of the line writes argument 4's buffer: the fold leaves it as it was. -/
theorem kept4 (V : Valuation τ sig (Elt F)) :
    after (ops (F := F)) V (Proc.devRef .tc main_arg4) = V (Proc.devRef .tc main_arg4) := by
  simp (disch := decide) only [ops, after_app, after_cons, after_nil,
    nullary_result_ne', unary_result_ne', binary_result_ne', ternary_result_ne']

/-- The first result: the eight leading operations compose to the mean absolute difference's term, and no later
    operation writes its buffer. -/
theorem recon_val (m : (ℓ : Loc nD τ sig) → Buf (Elt Ideal) ℓ) (d : Dev nD) :
    StableHlo.after (ops (F := Ideal)) (StableHlo.launchContents m d) (Proc.devRef .tc main_v4)
      = Host.divf (F := Ideal) (Host.reduceAdd (Host.reduceAdd (Host.absf (subf (m ((d.tc : Thread nD τ).loc main_arg0)) (m ((d.tc : Thread nD τ).loc main_arg1)))) (constant S_ .f32 0x00000000#32) reducesTo_S256x3x128x128_S256_d1_2_3 h_S_) (constant S_ .f32 0x00000000#32) reducesTo_S256_S_d0 h_S_) (constant S_ .f32 0x43800000#32) := by
  simp (disch := decide) only [ops, after_app, after_cons, after_nil,
    nullary_result', unary_result', binary_result', ternary_result',
    nullary_result_ne', unary_result_ne', binary_result_ne', ternary_result_ne']

/-- Over the last stretch alone, from any contents: its last operation adds the first two results into a buffer of
    its own, and no operation of the stretch after the one that writes a result's buffer writes it again. -/
theorem total_gen (W : Valuation τ sig (Elt F)) :
    after (ops14 (F := F)) W (Proc.devRef .tc main_v50)
      = addf (F := F) (s := S_) (φ := .f32) (after (ops14 (F := F)) W (Proc.devRef .tc main_v4))
          (after (ops14 (F := F)) W (Proc.devRef .tc main_v49)) := by
  simp (disch := decide) only [after_cons, after_nil,
    nullary_result', unary_result', binary_result', ternary_result',
    nullary_result_ne', unary_result_ne', binary_result_ne', ternary_result_ne']

/-- The third result is the sum of the first two: the line is the earlier stretches followed by the last one, and
    over the last one the sum holds from any contents. -/
theorem total_val (m : (ℓ : Loc nD τ sig) → Buf (Elt Ideal) ℓ) (d : Dev nD) :
    StableHlo.after (ops (F := Ideal)) (StableHlo.launchContents m d) (Proc.devRef .tc main_v50)
      = addf (F := Ideal) (s := S_) (φ := .f32) (StableHlo.after (ops (F := Ideal)) (StableHlo.launchContents m d) (Proc.devRef .tc main_v4))
          (StableHlo.after (ops (F := Ideal)) (StableHlo.launchContents m d) (Proc.devRef .tc main_v49)) := by
  simp only [ops, after_app]
  exact total_gen _

/-- Each argument's buffer ends at its contents at launch. -/
theorem arg_kept (m : (ℓ : Loc nD τ sig) → Buf (Elt Ideal) ℓ) (d : Dev nD) :
    ∀ r ∈ ([main_arg0, main_arg1, main_arg2, main_arg3, main_arg4] : List (Ref sig .tc)),
      StableHlo.after (ops (F := Ideal)) (StableHlo.launchContents m d) (Proc.devRef .tc r) = m ((d.tc : Thread nD τ).loc r) := by
  intro r hr
  simp only [List.mem_cons, List.not_mem_nil, or_false] at hr
  rcases hr with rfl | rfl | rfl | rfl | rfl
  · exact kept0 _
  · exact kept1 _
  · exact kept2 _
  · exact kept3 _
  · exact kept4 _

/-- The reference runs — every weakly fair execution terminates — and ends with its five arguments unchanged: each
    buffer ends at the fold of the line over its launch contents, and the fold leaves the arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_arg0).trans (kept0 _), (h c main_arg1).trans (kept1 _),
      (h c main_arg2).trans (kept2 _), (h c main_arg3).trans (kept3 _), (h c main_arg4).trans (kept4 _)⟩)
    (run_all m ρ)

end Cert.ReferenceIdeal.Recon

end
-- ==== Proof.Bridge.Kld.lean ====
/-
  The divergence terms are computed by the same host lines in both programs, from the label, mean and
  position arrays alone: evaluated from contents that agree on those three arrays, the kernel program's
  second result and the reference's are one term.
-/
import proofs.«112906_j55533927137965_1_alg».proof.Proof.Ideal.Region
import proofs.«112906_j55533927137965_1_alg».proof.Proof.Ref.Run
import Idealize.ShloMosaic.Lib.StableHlo.Run
import Idealize.ShloMosaic.PureOps.Ideal

set_option maxRecDepth 16384

noncomputable section

namespace Cert.Recon.Bridge

open Idealize.ShloMosaic Idealize.ShloMosaic.TcCoe Idealize.SL.Sem Idealize.ShloMosaic.StableHlo

set_option maxHeartbeats 16000000 in
/-- The second results agree. -/
theorem kld_agree (X : Valuation Cert.KernelIdeal.τ Cert.KernelIdeal.sig (Elt Ideal)) (X' : Valuation Cert.ReferenceIdeal.τ Cert.ReferenceIdeal.sig (Elt Ideal))
    (h2 : X' (Proc.devRef .tc Cert.ReferenceIdeal.main_arg2) = X (Proc.devRef .tc Cert.KernelIdeal.main_arg2))
    (h3 : X' (Proc.devRef .tc Cert.ReferenceIdeal.main_arg3) = X (Proc.devRef .tc Cert.KernelIdeal.main_arg3))
    (h4 : X' (Proc.devRef .tc Cert.ReferenceIdeal.main_arg4) = X (Proc.devRef .tc Cert.KernelIdeal.main_arg4)) :
    StableHlo.after (Cert.ReferenceIdeal.Recon.ops (F := Ideal)) X' (Proc.devRef .tc Cert.ReferenceIdeal.main_v49)
      = StableHlo.after (Cert.KernelIdeal.Recon.tailOps (F := Ideal)).flatten X (Proc.devRef .tc Cert.KernelIdeal.main_v47) := by
  simp only [Cert.ReferenceIdeal.Recon.ops, Cert.ReferenceIdeal.Recon.ops0, Cert.ReferenceIdeal.Recon.ops1, Cert.ReferenceIdeal.Recon.ops2, Cert.ReferenceIdeal.Recon.ops3, Cert.ReferenceIdeal.Recon.ops4, Cert.ReferenceIdeal.Recon.ops5, Cert.ReferenceIdeal.Recon.ops6, Cert.ReferenceIdeal.Recon.ops7, Cert.ReferenceIdeal.Recon.ops8, Cert.ReferenceIdeal.Recon.ops9, Cert.ReferenceIdeal.Recon.ops10, Cert.ReferenceIdeal.Recon.ops11, Cert.ReferenceIdeal.Recon.ops12, Cert.ReferenceIdeal.Recon.ops13, Cert.ReferenceIdeal.Recon.ops14, Cert.KernelIdeal.Recon.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, List.flatten_cons, List.flatten_nil, List.append_nil, List.cons_append, List.nil_append]
  after_results_simp
  simp only [h2, h3, h4]
  rfl

end Cert.Recon.Bridge

end
-- ==== Proof.lean ====
/-
  The certificate's five claims.

  The kernel program is one pallas_call followed by host lines. Its region walks the batch in 8 tiles of 32
  samples; at each tile it adds the tile's sum of |x - y| to a running total kept in a scratch word (reset at
  the first tile) and at the last tile copies the total into a [1,1] result array; the host then divides that
  word by 256 and computes the two divergence terms from the label, mean and position arrays. The reference
  sums |x - y| per sample, then over the batch, divides by 256, and computes the same divergence terms by the
  same host lines.

  Frames: the two kernel programs run to the end, fault nowhere and leave their arguments unchanged by the
  library's frame run for an @main that continues after its region, with the region's invariant carrying the
  scratch word between grid points; the reference by its straight line of host operations.
  The idealization rewrote nothing, so `preserves` asks nothing.
  Equal results over the extended reals: the first result is, on both sides, the sum of |x - y| over the whole
  [256,3,128,128] index set divided by the same 256 (a commutative monoid's sum regrouped by tiles on one side
  and by samples on the other: no finiteness is used); the second is one term of the three small arrays on
  both sides; the third is their sum.
-/
import proofs.«112906_j55533927137965_1_alg».proof.Defs
import proofs.«112906_j55533927137965_1_alg».proof.Proof.Gen.Kernel
import proofs.«112906_j55533927137965_1_alg».proof.Proof.Gen.KernelIdeal
import proofs.«112906_j55533927137965_1_alg».proof.Proof.Gen.ReferenceIdeal
import proofs.«112906_j55533927137965_1_alg».proof.Proof.Gen.Pre_finite_inputs
import proofs.«112906_j55533927137965_1_alg».proof.Proof.Bits.Frame
import proofs.«112906_j55533927137965_1_alg».proof.Proof.Ideal.Value
import proofs.«112906_j55533927137965_1_alg».proof.Proof.Ref.Value
import proofs.«112906_j55533927137965_1_alg».proof.Proof.Bridge.Kld
import proofs.«112906_j55533927137965_1_alg».proof.Proof.Sums
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Recon.frame m ρ

theorem frame_kernelIdeal : @Cert.frame_KernelIdeal Cert.KernelIdeal.Gen.facts Cert.Pre_finite_inputs.Gen.facts :=
  fun m ρ _ => Cert.KernelIdeal.Recon.frame m ρ

theorem frame_reference : @Cert.frame_ReferenceIdeal Cert.ReferenceIdeal.Gen.facts Cert.Pre_finite_inputs.Gen.facts :=
  fun m ρ _ => Cert.ReferenceIdeal.Recon.frame m ρ

theorem preserves : Cert.preserves_Kernel_KernelIdeal := trivial

/-- Both idealized programs, from memories that agree on the arguments, end with the same three results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => StableHlo.after (Cert.KernelIdeal.Recon.tailOps (F := Ideal)).flatten (Cert.KernelIdeal.Recon.exitV m c) (Proc.devRef .tc Cert.KernelIdeal.main_v2),
    fun c => StableHlo.after (Cert.KernelIdeal.Recon.tailOps (F := Ideal)).flatten (Cert.KernelIdeal.Recon.exitV m c) (Proc.devRef .tc Cert.KernelIdeal.main_v47),
    fun c => StableHlo.after (Cert.KernelIdeal.Recon.tailOps (F := Ideal)).flatten (Cert.KernelIdeal.Recon.exitV m c) (Proc.devRef .tc Cert.KernelIdeal.main_v48),
    Cert.KernelIdeal.Recon.value_run (F := Ideal) m ρ, ?_⟩
  refine (θ_run Cert.ReferenceIdeal.defs _ _).mono (fun r h c => ?_) (Cert.ReferenceIdeal.Recon.run_all (F := Ideal) m' ρ')
  obtain ⟨a0, a1, a2, a3, a4⟩ := hagree c
  -- the divergence terms: one term of the three small arrays, which agree
  have e49 : StableHlo.after (Cert.ReferenceIdeal.Recon.ops (F := Ideal)) (StableHlo.launchContents m' c) (Proc.devRef .tc Cert.ReferenceIdeal.main_v49)
      = StableHlo.after (Cert.KernelIdeal.Recon.tailOps (F := Ideal)).flatten (Cert.KernelIdeal.Recon.exitV m c) (Proc.devRef .tc Cert.KernelIdeal.main_v47) :=
    Cert.Recon.Bridge.kld_agree _ _
      (a2.trans (Cert.KernelIdeal.Recon.exit_rest m c Cert.KernelIdeal.main_arg2 (by decide)).symm)
      (a3.trans (Cert.KernelIdeal.Recon.exit_rest m c Cert.KernelIdeal.main_arg3 (by decide)).symm)
      (a4.trans (Cert.KernelIdeal.Recon.exit_rest m c Cert.KernelIdeal.main_arg4 (by decide)).symm)
  -- the reconstruction term: the same sum over the whole index set, over the same 256
  have e4 : StableHlo.after (Cert.ReferenceIdeal.Recon.ops (F := Ideal)) (StableHlo.launchContents m' c) (Proc.devRef .tc Cert.ReferenceIdeal.main_v4)
      = StableHlo.after (Cert.KernelIdeal.Recon.tailOps (F := Ideal)).flatten (Cert.KernelIdeal.Recon.exitV m c) (Proc.devRef .tc Cert.KernelIdeal.main_v2) := by
    rw [Cert.ReferenceIdeal.Recon.recon_val, Cert.KernelIdeal.Recon.recon_val, a0, a1]
    refine congrArg (fun v => Host.divf (F := Ideal) v (constant (F := Ideal) Cert.KernelIdeal.S_ .f32 0x43800000#32)) (funext fun j => ?_)
    exact Cert.Recon.Sums.ref_total _ _ _ _ _ j
  have hk := Cert.ReferenceIdeal.Recon.arg_kept m' c
  refine ⟨(h c Cert.ReferenceIdeal.main_v4).trans e4, (h c Cert.ReferenceIdeal.main_v49).trans e49, (h c Cert.ReferenceIdeal.main_v50).trans ?_,
    (h c Cert.ReferenceIdeal.main_arg0).trans (hk _ (by simp)), (h c Cert.ReferenceIdeal.main_arg1).trans (hk _ (by simp)),
    (h c Cert.ReferenceIdeal.main_arg2).trans (hk _ (by simp)), (h c Cert.ReferenceIdeal.main_arg3).trans (hk _ (by simp)),
    (h c Cert.ReferenceIdeal.main_arg4).trans (hk _ (by simp))⟩
  rw [Cert.ReferenceIdeal.Recon.total_val, e4, e49]
  exact (Cert.KernelIdeal.Recon.tail_total (F := Ideal) (Cert.KernelIdeal.Recon.exitV m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
